-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩
abbrev S1x1000000 : Shape := ⟨2, ![1, 1000000]⟩
abbrev S1000000 : Shape := ⟨1, ![1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg1 : IVec S2x1000000 32) (main_v33 : IVec S_ 1) : IVec S_ 1 :=
  let main_v34 : IVec S1x1000000 32 := (extractStridedSlice S1x1000000 ![0, 0] · slices_S2x1000000_S1x1000000_0_0) main_arg1
  let main_v35 : IVec S1000000 32 := shapeCast S1000000 main_v34 shapeCasts_S1x1000000_S1000000
  let main_c_12 : IVec S_ 32 := constantI S_ 32 0#32
  let main_v36 : IVec S1000000 32 := broadcastInDim S1000000 ![] bcast_S_S1000000 main_c_12
  let main_v37 : IVec S1000000 1 := cmpi .sge main_v35 main_v36
  let main_v38 : IVec S1x1000000 32 := (extractStridedSlice S1x1000000 ![0, 0] · slices_S2x1000000_S1x1000000_0_0) main_arg1
  let main_v39 : IVec S1000000 32 := shapeCast S1000000 main_v38 shapeCasts_S1x1000000_S1000000
  let main_c_13 : IVec S_ 32 := constantI S_ 32 99999#32
  let main_v40 : IVec S1000000 32 := broadcastInDim S1000000 ![] bcast_S_S1000000 main_c_13
  let main_v41 : IVec S1000000 1 := cmpi .sle main_v39 main_v40
  let main_v42 : IVec S1000000 1 := andi main_v37 main_v41
  let main_c_14 : IVec S_ 1 := constantI S_ 1 1#1
  let main_v43 : IVec S_ 1 := (fun x v => Host.reduce IntOp.andi x v reducesTo_S1000000_S_d0 h_S_) main_v42 main_c_14
  let main_v44 : IVec S_ 1 := andi main_v33 main_v43
  main_v44

def fn_part1 {F : FTy → Type} [FloatOps F] (main_arg1 : IVec S2x1000000 32) (main_arg5 : FVec F S1x64 .f32) (main_arg6 : FVec F S1 .f32) (main_arg7 : FVec F S1x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S1x64 .f32) (main_arg6 : FVec F S1 .f32) (main_arg7 : FVec F S1x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1x1 : Shape := ⟨2, ![1, 1]⟩
abbrev S1000000x64 : Shape := ⟨2, ![1000000, 64]⟩
abbrev S10000x64 : Shape := ⟨2, ![10000, 64]⟩
abbrev S10000x1 : Shape := ⟨2, ![10000, 1]⟩
abbrev S8000x64 : Shape := ⟨2, ![8000, 64]⟩
abbrev S8000x1 : Shape := ⟨2, ![8000, 1]⟩
abbrev S64x1 : Shape := ⟨2, ![64, 1]⟩

abbrev nBuf : Space → Nat
  | .hbm => 82
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x1, .bf16⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1, .i32⟩
  | .hbm, ⟨32, _⟩ => ⟨S_, .i32⟩
  | .hbm, ⟨33, _⟩ => ⟨S1000000x1, .i32⟩
  | .hbm, ⟨34, _⟩ => ⟨S1000000x1, .i1⟩
  | .hbm, ⟨35, _⟩ => ⟨S1x1, .i32⟩
  | .hbm, ⟨36, _⟩ => ⟨S1000000x1, .i32⟩
  | .hbm, ⟨37, _⟩ => ⟨S1000000x1, .i1⟩
  | .hbm, ⟨38, _⟩ => ⟨S1000000x1, .i1⟩
  | .hbm, ⟨39, _⟩ => ⟨S_, .i1⟩
  | .hbm, ⟨40, _⟩ => ⟨S1000000, .i1⟩
  | .hbm, ⟨41, _⟩ => ⟨S1000000x64, .f32⟩
  | .hbm, ⟨42, _⟩ => ⟨S1000000x64, .i1⟩
  | .hbm, ⟨43, _⟩ => ⟨S_, .f32⟩
  | .hbm, ⟨44, _⟩ => ⟨S1000000x64, .f32⟩
  | .hbm, ⟨45, _⟩ => ⟨S1000000x64, .f32⟩
  | .hbm, ⟨46, _⟩ => ⟨S_, .f32⟩
  | .hbm, ⟨47, _⟩ => ⟨S100000x64, .f32⟩
  | .hbm, ⟨48, _⟩ => ⟨S1000000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1, .i32⟩
  | .hbm, ⟨61, _⟩ => ⟨S_, .i32⟩
  | .hbm, ⟨62, _⟩ => ⟨S1000000x1, .i32⟩
  | .hbm, ⟨63, _⟩ => ⟨S1000000x1, .i1⟩
  | .hbm, ⟨64, _⟩ => ⟨S1x1, .i32⟩
  | .hbm, ⟨65, _⟩ => ⟨S1000000x1, .i32⟩
  | .hbm, ⟨66, _⟩ => ⟨S1000000x1, .i1⟩
  | .hbm, ⟨67, _⟩ => ⟨S1000000x1, .i1⟩
  | .hbm, ⟨68, _⟩ => ⟨S_, .i1⟩
  | .hbm, ⟨69, _⟩ => ⟨S1000000, .i1⟩
  | .hbm, ⟨70, _⟩ => ⟨S1000000x64, .f32⟩
  | .hbm, ⟨71, _⟩ => ⟨S1000000x64, .i1⟩
  | .hbm, ⟨72, _⟩ => ⟨S_, .f32⟩
  | .hbm, ⟨73, _⟩ => ⟨S1000000x64, .f32⟩
  | .hbm, ⟨74, _⟩ => ⟨S1000000x64, .f32⟩
  | .hbm, ⟨75, _⟩ => ⟨S_, .f32⟩
  | .hbm, ⟨76, _⟩ => ⟨S100000x64, .f32⟩
  | .hbm, ⟨77, _⟩ => ⟨S1000000x1, .i32⟩
  | .hbm, ⟨78, _⟩ => ⟨S100000x64, .f32⟩
  | .hbm, ⟨79, _⟩ => ⟨S1x1, .f32⟩
  | .hbm, ⟨80, _⟩ => ⟨S100000x1, .f32⟩
  | .hbm, ⟨81, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x1, .bf16⟩
  | .local _ .vmem, ⟨3, _⟩ => ⟨S10000x1, .bf16⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S8000x64, .f32⟩
  | .local _ .vmem, ⟨12, _⟩ => ⟨S8000x64, .f32⟩
  | .local _ .vmem, ⟨13, _⟩ => ⟨S8000x1, .bf16⟩
  | .local _ .vmem, ⟨14, _⟩ => ⟨S8000x1, .bf16⟩
  | .local _ .vmem, ⟨15, _⟩ => ⟨S8000x64, .f32⟩
  | .local _ .vmem, ⟨16, _⟩ => ⟨S8000x64, .f32⟩
  | .local _ .vmem, ⟨17, _⟩ => ⟨S1x64, .f32⟩
  | .local _ .vmem, ⟨18, _⟩ => ⟨S1x1, .f32⟩
  | .local _ .vmem, ⟨19, _⟩ => ⟨S1x64, .f32⟩
  | .local _ .vmem, ⟨20, _⟩ => ⟨S8000x1, .f32⟩
  | .local _ .vmem, ⟨21, _⟩ => ⟨S8000x1, .f32⟩
  | .local _ .vmem, ⟨22, _⟩ => ⟨S8000x1, .f32⟩
  | .local _ .vmem, ⟨23, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23_0 : Ref sig .tc := ⟨.hbm, 80, rfl⟩
abbrev main_v23_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bitsLt_bf16_f32 : FTy.bits .bf16 < FTy.bits .f32
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  shapeCasts_S64_S1x64 : S64.ShapeCasts S1x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S10000x64 : S1x64.Broadcasts S10000x64
  shapeCasts_S1_S1x1 : S1.ShapeCasts S1x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x64_p1_0_S64x1 : S1x64.Transposes [1, 0] S64x1
  broadcasts_S1x1_S8000x1 : S1x1.Broadcasts S8000x1
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .bf16 = 32 ∨ (Rect.block (s := S100000x1) S10000x1.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8000x64.size a < S100000x64.size a
  hwx1_0 : ∀ i : grid1.Coords, EltTy.bits .f32 = 32 ∨ (Rect.unit (s := S100000x64) (fun a => cc1_transform_0 i a * S8000x64.size a) (fun a => (Pipeline.Clip.of (cc1_transform_0 i a) (S8000x64.size a) (S100000x64.size a)).extent (S8000x64.size a)) fun a => Pipeline.Clip.inb (Pipeline.Clip.ok_of (hstart1_0 i a))).WholeWords (EltTy.packing .f32)
  hwxs1_0 : ∀ i : grid1.Coords, EltTy.bits .f32 = 32 ∨ (Rect.unit (s := S8000x64) (fun _ => 0) (fun a => (Pipeline.Clip.of (cc1_transform_0 i a) (S8000x64.size a) (S100000x64.size a)).extent (S8000x64.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8000x1.size a < S100000x1.size a
  hwx1_1 : ∀ i : grid1.Coords, EltTy.bits .bf16 = 32 ∨ (Rect.unit (s := S100000x1) (fun a => cc1_transform_1 i a * S8000x1.size a) (fun a => (Pipeline.Clip.of (cc1_transform_1 i a) (S8000x1.size a) (S100000x1.size a)).extent (S8000x1.size a)) fun a => Pipeline.Clip.inb (Pipeline.Clip.ok_of (hstart1_1 i a))).WholeWords (EltTy.packing .bf16)
  hwxs1_1 : ∀ i : grid1.Coords, EltTy.bits .bf16 = 32 ∨ (Rect.unit (s := S8000x1) (fun _ => 0) (fun a => (Pipeline.Clip.of (cc1_transform_1 i a) (S8000x1.size a) (S100000x1.size a)).extent (S8000x1.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8000x64.size a < S100000x64.size a
  hwx1_2 : ∀ i : grid1.Coords, EltTy.bits .f32 = 32 ∨ (Rect.unit (s := S100000x64) (fun a => cc1_transform_2 i a * S8000x64.size a) (fun a => (Pipeline.Clip.of (cc1_transform_2 i a) (S8000x64.size a) (S100000x64.size a)).extent (S8000x64.size a)) fun a => Pipeline.Clip.inb (Pipeline.Clip.ok_of (hstart1_2 i a))).WholeWords (EltTy.packing .f32)
  hwxs1_2 : ∀ i : grid1.Coords, EltTy.bits .f32 = 32 ∨ (Rect.unit (s := S8000x64) (fun _ => 0) (fun a => (Pipeline.Clip.of (cc1_transform_2 i a) (S8000x64.size a) (S100000x64.size a)).extent (S8000x64.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S8000x1.size a < S100000x1.size a
  hwx1_6 : ∀ i : grid1.Coords, EltTy.bits .f32 = 32 ∨ (Rect.unit (s := S100000x1) (fun a => cc1_transform_6 i a * S8000x1.size a) (fun a => (Pipeline.Clip.of (cc1_transform_6 i a) (S8000x1.size a) (S100000x1.size a)).extent (S8000x1.size a)) fun a => Pipeline.Clip.inb (Pipeline.Clip.ok_of (hstart1_6 i a))).WholeWords (EltTy.packing .f32)
  hwxs1_6 : ∀ i : grid1.Coords, EltTy.bits .f32 = 32 ∨ (Rect.unit (s := S8000x1) (fun _ => 0) (fun a => (Pipeline.Clip.of (cc1_transform_6 i a) (S8000x1.size a) (S100000x1.size a)).extent (S8000x1.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S8000x1.size a < S100000x1.size a
  hwx1_7 : ∀ i : grid1.Coords, EltTy.bits .f32 = 32 ∨ (Rect.unit (s := S100000x1) (fun a => cc1_transform_7 i a * S8000x1.size a) (fun a => (Pipeline.Clip.of (cc1_transform_7 i a) (S8000x1.size a) (S100000x1.size a)).extent (S8000x1.size a)) fun a => Pipeline.Clip.inb (Pipeline.Clip.ok_of (hstart1_7 i a))).WholeWords (EltTy.packing .f32)
  hwxs1_7 : ∀ i : grid1.Coords, EltTy.bits .f32 = 32 ∨ (Rect.unit (s := S8000x1) (fun _ => 0) (fun a => (Pipeline.Clip.of (cc1_transform_7 i a) (S8000x1.size a) (S100000x1.size a)).extent (S8000x1.size a)) fun a => (Nat.zero_add _).trans_le (Pipeline.Clip.extent_le (Pipeline.Clip.ok_of (hstart1_7 i a)))).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v15) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpecClip (Memref.whole main_v21) S8000x64.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v11) S8000x1.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v17) S8000x64.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_arg5) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpecClip (Memref.whole main_v23_0) S8000x1.size cc1_transform_6 reads1_6 true false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v23_1) S8000x1.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S64x1 : Shape := ⟨2, ![64, 1]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x64, .f32⟩
  | .hbm, ⟨6, _⟩ => ⟨S1, .f32⟩
  | .hbm, ⟨7, _⟩ => ⟨S1x64, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1000000x64, .f32⟩
  | .hbm, ⟨21, _⟩ => ⟨S_, .f32⟩
  | .hbm, ⟨22, _⟩ => ⟨S100000x64, .f32⟩
  | .hbm, ⟨23, _⟩ => ⟨S1000000x1, .i32⟩
  | .hbm, ⟨24, _⟩ => ⟨S100000x64, .f32⟩
  | .hbm, ⟨25, _⟩ => ⟨S_, .f32⟩
  | .hbm, ⟨26, _⟩ => ⟨S1000000, .f32⟩
  | .hbm, ⟨27, _⟩ => ⟨S_, .f32⟩
  | .hbm, ⟨28, _⟩ => ⟨S100000, .f32⟩
  | .hbm, ⟨29, _⟩ => ⟨S1000000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x1, .f32⟩
  | .hbm, ⟨74, _⟩ => ⟨S100000x1, .f32⟩
  | .hbm, ⟨75, _⟩ => ⟨S1x1, .f32⟩
  | .hbm, ⟨76, _⟩ => ⟨S100000x1, .f32⟩
  | .hbm, ⟨77, _⟩ => ⟨S100000x1, .f32⟩
  | .hbm, ⟨78, _⟩ => ⟨S64x1, .f32⟩
  | .hbm, ⟨79, _⟩ => ⟨S100000x1, .f32⟩
  | .hbm, ⟨80, _⟩ => ⟨S100000x1, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S_, .f32⟩
  | .hbm, ⟨87, _⟩ => ⟨S100000x1, .f32⟩
  | .hbm, ⟨88, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Data.lean ====
import proofs.«414274_j35485019799946_3_alg».proof.Proof.Gen.KernelIdeal.Launch
import proofs.«414274_j35485019799946_3_alg».proof.Proof.Gen.KernelIdeal.Skeleton
import proofs.«414274_j35485019799946_3_alg».proof.Proof.Gen.KernelIdeal.Points
import Idealize.ShloMosaic.Lib.Pipeline.FrameBody
import Idealize.ShloMosaic.Lib.Pipeline.Frame

/-!
The proof data of the two pipelines.

Region 0 (ten row blocks of 10000 rows, none cut): after the body every input window's staging buffer holds the
block the pipeline fetched and the output window's holds the body's one store, a function of the six input blocks.

Region 1 (thirteen row blocks of 8000 rows over 100000 rows: the last block holds 4000 rows of the array and 4000
rows past its end): the three row-blocked inputs and the two outputs are cut at the last point. What a cut buffer
holds past the array's end is not named by anything; the data below fill those rows with the zero word, which no
statement reads: the body obligation of a cut window speaks of the rows inside the array only.
-/

noncomputable section

namespace Cert.KernelIdeal.Sage

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S10000x64 := Rect.unit (s := S10000x64) ![0, 0] S10000x64.size inb_S10000x64_S10000x64_0_0
abbrev r0_col : Rect S10000x1 := Rect.unit (s := S10000x1) ![0, 0] S10000x1.size inb_S10000x1_S10000x1_0_0
abbrev r0_w : Rect S64x64 := Rect.unit (s := S64x64) ![0, 0] S64x64.size inb_S64x64_S64x64_0_0
abbrev r0_b : Rect S1x64 := Rect.unit (s := S1x64) ![0, 0] S1x64.size inb_S1x64_S1x64_0_0

/-- What region 0's body leaves in the output window's buffer: its one whole store, of the payload of the six
    whole loads (summed block, clamped-degree column, root block, left weights, bias row, right weights). -/
def out0_6 (x0 : Vec F S10000x64 .f32) (x1 : Vec F S10000x1 .bf16) (x2 : Vec F S10000x64 .f32) (x3 : Vec F S64x64 .f32)
    (x4 : Vec F S1x64 .f32) (x5 : Vec F S64x64 .f32) : Vec F S10000x64 .f32 :=
  View.canon [⟨r0_rows, k0_pay1 (View.ld x1 r0_col) (View.ld x0 r0_rows) (View.ld x2 r0_rows) (View.ld x3 r0_w) (View.ld x5 r0_w) (View.ld x4 r0_b)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-! ## Region 1 -/

/-- Window `w`'s block at point `t` of region 1: the part of it inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three row-blocked inputs as whole 8000-row blocks: the rows inside the array, zero words past its end. -/
def full1_0 (c : Dev nD) (t : Fin cfg1.N) : Vec F S8000x64 .f32 :=
  win1_0.fill (grid1.coords t) (fun _ => Scalar.ofBits .f32 0#32) (iblk1 V c 0 t)
def full1_1 (c : Dev nD) (t : Fin cfg1.N) : Vec F S8000x1 .bf16 :=
  win1_1.fill (grid1.coords t) (fun _ => Scalar.ofBits .bf16 0#16) (iblk1 V c 1 t)
def full1_2 (c : Dev nD) (t : Fin cfg1.N) : Vec F S8000x64 .f32 :=
  win1_2.fill (grid1.coords t) (fun _ => Scalar.ofBits .f32 0#32) (iblk1 V c 2 t)

/-- The proof data of pipeline 1 on core `c`: the inputs' buffers at their blocks (the cut ones filled out with
    zero words), the two outputs' at the body's two payloads of those. -/
def dat1 (c : Dev nD) : Dat τ (Elt F) Unit ℕ (UR sig nD τ) ℕ cfg1 c where
  A w := V c (Pipeline.arrRef spec1 w)
  after w t := match w with
    | ⟨0, _⟩ => full1_0 V c t
    | ⟨1, _⟩ => full1_1 V c t
    | ⟨2, _⟩ => full1_2 V c t
    | ⟨3, _⟩ => iblk1 V c 3 t
    | ⟨4, _⟩ => iblk1 V c 4 t
    | ⟨5, _⟩ => iblk1 V c 5 t
    | ⟨6, _⟩ => k1_pay1 (full1_1 V c t) (full1_0 V c t) (full1_2 V c t) (iblk1 V c 3 t) (iblk1 V c 5 t) (iblk1 V c 4 t)
    | ⟨7, _⟩ => k1_pay2 (full1_1 V c t) (full1_0 V c t) (full1_2 V c t) (iblk1 V c 3 t) (iblk1 V c 5 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = full1_0 V c t := by dsimp only [dat1]
theorem after1_1 (c : Dev nD) (t : Fin cfg1.N) : (dat1 V c).after 1 t = full1_1 V c t := by dsimp only [dat1]
theorem after1_2 (c : Dev nD) (t : Fin cfg1.N) : (dat1 V c).after 2 t = full1_2 V c t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay1 (full1_1 V c t) (full1_0 V c t) (full1_2 V c t) (iblk1 V c 3 t) (iblk1 V c 5 t) (iblk1 V c 4 t) := by dsimp only [dat1]
theorem after1_7 (c : Dev nD) (t : Fin cfg1.N) : (dat1 V c).after 7 t
    = k1_pay2 (full1_1 V c t) (full1_0 V c t) (full1_2 V c t) (iblk1 V c 3 t) (iblk1 V c 5 t) (iblk1 V c 4 t) := by dsimp only [dat1]

end Cert.KernelIdeal.Sage

end
-- ==== Proof.Body0.lean ====
import proofs.«414274_j35485019799946_3_alg».proof.Proof.Data
import Idealize.ShloMosaic.Lib.Pipeline.FrameBody
import Idealize.ShloMosaic.Lib.Pipeline.Frame
import Idealize.ShloMosaic.Lib.Tactic

/-!
The body obligation of pipeline 0 (ten row blocks of 10000 rows, none cut).

Every input window's current staging buffer holds its block at every point: the three row-blocked inputs are fetched
at every point; the two weight matrices and the bias row are fetched at the first point and kept, their block index
constant. The body reads the six input buffers whole, reads the output buffer whole (a value nothing uses) and stores
the payload of the six loads over the whole output buffer; one whole store covers the buffer, so what the buffer then
reads is the payload whatever it held before.
-/

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers hold their blocks -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The one store covers the output buffer -/

theorem cover0_6 (p0 : Vec F S10000x64 .f32) (y : S10000x64.Idx) :
    ∃ pc ∈ ([⟨r0_rows, p0⟩] : List (View.Piece (Elt F) S10000x64 .f32)), y ∈ pc.1.set :=
  View.cover_of_tiled [⟨r0_rows, p0⟩] S10000x64.size (by rfl) y

/-! ## The body's triple -/

set_option maxHeartbeats 1000000 in
/-- The body on whole staging memrefs, the six inputs' at read contents `x0 … x5` and the output's at anything, runs to
    the inputs' as they were and the output's at `out0_6` of the inputs'. -/
theorem sound_kernel0 (c : Dev nD) (E : Set ℕ) (i : grid0.Coords)
    (arg1 : Memref sig .tc .vmem S10000x64 .f32) (harg1 : arg1.IsWhole) (arg2 : Memref sig .tc .vmem S10000x1 .bf16) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x64 .f32) (harg7 : arg7.IsWhole)
    (x0 : Vec F S10000x64 .f32) (x1 : Vec F S10000x1 .bf16) (x2 : Vec F S10000x64 .f32) (x3 : Vec F S64x64 .f32)
    (x4 : Vec F S1x64 .f32) (x5 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) :
    Pipeline.BodyObligation (dat0 (F := F) V c) (defs₀ (F := F)) Variants.none () Set.univ := fun t => by
  rw [bigSep_W0, bigSep_W0]
  exact sound_body0 V c t

end Cert.KernelIdeal.Sage

end
-- ==== Proof.Body1.lean ====
import proofs.«414274_j35485019799946_3_alg».proof.Proof.Data
import Idealize.ShloMosaic.Lib.Pipeline.Kit
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
Region 1's body obligation at the ideal values, in the form for cut windows.

The second layer's pipeline runs thirteen blocks of 8000 rows over arrays of 100000 rows; the last block holds 4000
rows of the arrays and 4000 rows past their end. The body's output at row `r` of a block depends on row `r` of the
three row-blocked inputs only (a division by the degree column, two contractions over the 64 features, a bias), so
on the rows inside the arrays the body's two results do not depend on what the cut input buffers hold past the
arrays' end: that is all the obligation of a cut window states.
-/

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx

section Before

variable {F : FTy → Type} [FloatOps F]

variable (V : (c : Dev nD) → (b : Ref sig .tc) → Buf (Elt F) ((c : Thread nD τ).loc b))

/-! ## What the body finds in each window's current buffer -/

/-- The three row-blocked inputs are fetched at every point: the buffer holds the block on the rows inside the
    array and `d` past its end. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

/-- The two weight rows and the bias are uncut, fetched once, never idle, and the body leaves them in place: the
    buffer holds the block at every point. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- The outputs are never fetched -/
theorem nofetch1_6 : ∀ t : Fin cfg1.N, (cfg1.win 6).fetch t = false :=
  (by decide +kernel : ∀ t : Fin grid1.N, win1_6.fetch t = false)
theorem nofetch1_7 : ∀ t : Fin cfg1.N, (cfg1.win 7).fetch t = false :=
  (by decide +kernel : ∀ t : Fin grid1.N, win1_7.fetch t = false)

/-- and written back at every point: the body finds their buffers at contents nothing names. -/
theorem before1_6 (c : Dev nD) (t : Fin cfg1.N) (d) : (dat1 V c).before 6 t d = d := by
  by_cases ht : t.val = 0
  · unfold Dat.before
    rw [if_neg (by rw [nofetch1_6 t]; exact Bool.false_ne_true), if_pos ht]
  · rw [(dat1 V c).before_of_pos 6 t ht (nofetch1_6 t) d, if_pos (flush1_6 _)]
theorem before1_7 (c : Dev nD) (t : Fin cfg1.N) (d) : (dat1 V c).before 7 t d = d := by
  by_cases ht : t.val = 0
  · unfold Dat.before
    rw [if_neg (by rw [nofetch1_7 t]; exact Bool.false_ne_true), if_pos ht]
  · rw [(dat1 V c).before_of_pos 7 t ht (nofetch1_7 t) d, if_pos (flush1_7 _)]

end Before

section Run

variable {F : FTy → Type} [FloatOps F]

local notation "𝕄" => MT nD τ sig Unit (Elt F) ℕ (UR sig nD τ) ℕ

/-! ## The body's run -/

abbrev r1_col : Rect S8000x1 := Rect.unit (s := S8000x1) ![0, 0] S8000x1.size inb_S8000x1_S8000x1_0_0

/-- A store of a whole 8000-row column covers the column's buffer. -/
theorem cover1_col (p0 : Vec F S8000x1 .f32) (y : S8000x1.Idx) :
    ∃ pc ∈ ([⟨r1_col, p0⟩] : List (View.Piece (Elt F) S8000x1 .f32)), y ∈ pc.1.set :=
  View.cover_of_tiled [⟨r1_col, p0⟩] S8000x1.size (by rfl) y

theorem zero_offsets : (![0, 0] : Fin 2 → Nat) = fun _ => 0 := funext fun a => by fin_cases a <;> rfl

set_option maxHeartbeats 1000000 in
/-- The body on whole staging memrefs, the six inputs' at read contents `x0 … x5` and the two outputs' at anything:
    six whole loads, two dead loads of the outputs, and one whole store into each output — the first of the linear
    layer's value of the loads, the second of its logistic. The inputs' buffers are left as they were. -/
theorem sound_kernel1 (c : Dev nD) (E : Set ℕ) (i : grid1.Coords)
    (arg1 : Memref sig .tc .vmem S8000x64 .f32) (harg1 : arg1.IsWhole) (arg2 : Memref sig .tc .vmem S8000x1 .bf16) (harg2 : arg2.IsWhole)
    (arg3 : Memref sig .tc .vmem S8000x64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S1x64 .f32) (harg6 : arg6.IsWhole)
    (arg7 : Memref sig .tc .vmem S8000x1 .f32) (harg7 : arg7.IsWhole) (arg8 : Memref sig .tc .vmem S8000x1 .f32) (harg8 : arg8.IsWhole)
    (x0 : Vec F S8000x64 .f32) (x1 : Vec F S8000x1 .bf16) (x2 : Vec F S8000x64 .f32) (x3 : Vec F S1x64 .f32)
    (x4 : Vec F S1x1 .f32) (x5 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k1_pay1 x1 x0 x2 x3 x5 x4)
            ∗ owns (c : Thread nD τ) arg8 fullShare (k1_pay2 x1 x0 x2 x3 x5 x4)) -∗ K ⟨⟩))
      ⊢ wp frame (wpE (defs₀ (F := F)) Variants.none c none) E
          (cc1__sage_linear_kernel2 i arg1 harg1 arg2 harg2 arg3 harg3 arg4 harg4 arg5 harg5 arg6 harg6 arg7 harg7 arg8 harg8) K := by
  simp only [cc1__sage_linear_kernel2_eq_skeleton]; unfold cc1__sage_linear_kernel2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    -- the one whole store reads back as its payload, and each whole load reads the contents
    rw [View.read_writes_eq_canon _ _ _ (cover1_col _), View.canon_unit_zero zero_offsets]
    simp only [View.readAt_eq_ld, View.ld_unit_zero (S := S8000x64) zero_offsets, View.ld_unit_zero (S := S8000x1) zero_offsets,
      View.ld_unit_zero (S := S1x64) zero_offsets, View.ld_unit_zero (S := S1x1) zero_offsets]
  · iexists _; isplitr
    swap; · iexact H7
    ipureintro
    rw [View.read_writes_eq_canon _ _ _ (cover1_col _), View.canon_unit_zero zero_offsets]
    simp only [View.readAt_eq_ld, View.ld_unit_zero (S := S8000x64) zero_offsets, View.ld_unit_zero (S := S8000x1) zero_offsets,
      View.ld_unit_zero (S := S1x64) zero_offsets, View.ld_unit_zero (S := S1x1) zero_offsets]

end Run

section RowLocality

/-! ## Row locality of the body's two results, at the ideal values -/

local notation "D₁" => dot_S8000x64_S64x1_S8000x1_1_0_0_1_n_n

/-- The left operand's index of the contraction at result index `j` lies in row `j 0`, whatever the contraction
    position: axis 0 of the left operand is its one non-contracting axis. -/
theorem lhs_row (j : S8000x1.Idx) (q : dot_S8000x64_S64x1_S8000x1_1_0_0_1_n_n.contr.Idx) :
    (dot_S8000x64_S64x1_S8000x1_1_0_0_1_n_n.lhsIdx j q 0).val = (j 0).val := by
  unfold DotDims.lhsIdx
  rw [dif_neg (show ¬(0 : Fin S8000x64.rank) ∈ dot_S8000x64_S64x1_S8000x1_1_0_0_1_n_n.lhsBatch by decide),
    dif_pos (show (0 : Fin S8000x64.rank) ∈ dot_S8000x64_S64x1_S8000x1_1_0_0_1_n_n.lhsNonContracting by decide)]
  rfl

/-- A contraction over the features into any accumulator, read at row `j 0`, reads the left operand on that row
    only: a sum over the contraction index of products whose left factors sit in row `j 0`. -/
theorem matmul_row (L L' : FVec Ideal S8000x64 .bf16) (R : FVec Ideal S64x1 .bf16) (acc : FVec Ideal S8000x1 .f32)
    (j : S8000x1.Idx) (h : ∀ i : S8000x64.Idx, (i 0).val = (j 0).val → L i = L' i) :
    matmul dot_S8000x64_S64x1_S8000x1_1_0_0_1_n_n none L R acc j
      = matmul dot_S8000x64_S64x1_S8000x1_1_0_0_1_n_n none L' R acc j := by
  show FloatOps.matmul dot_S8000x64_S64x1_S8000x1_1_0_0_1_n_n none L R acc j
    = FloatOps.matmul dot_S8000x64_S64x1_S8000x1_1_0_0_1_n_n none L' R acc j
  rw [Ideal.matmul_apply, Ideal.matmul_apply]
  exact congrArg (acc j + ·) (Finset.sum_congr rfl fun q _ => by rw [h _ (lhs_row j q)])

/-- The degree column spread over the 64 features, read at an index, is the column's entry of that index's row. -/
theorem spread_row (x : FVec Ideal S8000x1 .f32) (i : S8000x64.Idx) :
    broadcastTo S8000x64 x broadcasts_S8000x1_S8000x64 i = x (ix2 (i 0) (0 : Fin 1)) :=
  broadcastTo_apply x broadcasts_S8000x1_S8000x64 i (ix2 (i 0) (0 : Fin 1)) fun a => by
    match a with
    | ⟨0, _⟩ => rfl
    | ⟨1, _⟩ => rfl

/-- Entry `j` of the first result (the linear layer's value) depends on row `j 0` of the summed block, the degree
    column and the root block only: the quotient by the degree is taken entry by entry along the row, the two
    contractions read their left operands on that row (`matmul_row`), and the weights and the bias are shared. -/
theorem pay1_row (X0 X0' X2 X2' : Vec Ideal S8000x64 .f32) (X1 X1' : Vec Ideal S8000x1 .bf16)
    (a c : Vec Ideal S1x64 .f32) (b : Vec Ideal S1x1 .f32) (j : S8000x1.Idx)
    (h0 : ∀ i : S8000x64.Idx, (i 0).val = (j 0).val → X0 i = X0' i)
    (h1 : ∀ i : S8000x1.Idx, (i 0).val = (j 0).val → X1 i = X1' i)
    (h2 : ∀ i : S8000x64.Idx, (i 0).val = (j 0).val → X2 i = X2' i) :
    k1_pay1 (F := Ideal) X1 X0 X2 a c b j = k1_pay1 (F := Ideal) X1' X0' X2' a c b j := by
  unfold k1_pay1
  dsimp only
  refine congrArg₂ (· + ·) (congrArg₂ (· + ·) (matmul_row _ _ _ _ j fun i hi => ?_) (matmul_row _ _ _ _ j fun i hi => ?_)) rfl
  · -- the summed block over the degree, at an index of row `j 0`
    show Ideal.div (shapeCast S8000x64 X0 shapeCasts_S8000x64_S8000x64 i) (broadcastTo S8000x64 _ broadcasts_S8000x1_S8000x64 i)
      = Ideal.div (shapeCast S8000x64 X0' shapeCasts_S8000x64_S8000x64 i) (broadcastTo S8000x64 _ broadcasts_S8000x1_S8000x64 i)
    simp only [spread_row, shapeCast_self]
    show Ideal.div (X0 i) (X1 (ix2 (i 0) (0 : Fin 1))) = Ideal.div (X0' i) (X1' (ix2 (i 0) (0 : Fin 1)))
    rw [h0 i hi, h1 (ix2 (i 0) (0 : Fin 1)) hi]
  · -- the root block, at an index of row `j 0`
    show shapeCast S8000x64 X2 shapeCasts_S8000x64_S8000x64 i = shapeCast S8000x64 X2' shapeCasts_S8000x64_S8000x64 i
    simp only [shapeCast_self]
    rw [h2 i hi]

/-- The second result is the logistic function of the first, entry by entry: the same rows. -/
theorem pay2_row (X0 X0' X2 X2' : Vec Ideal S8000x64 .f32) (X1 X1' : Vec Ideal S8000x1 .bf16)
    (a c : Vec Ideal S1x64 .f32) (b : Vec Ideal S1x1 .f32) (j : S8000x1.Idx)
    (h0 : ∀ i : S8000x64.Idx, (i 0).val = (j 0).val → X0 i = X0' i)
    (h1 : ∀ i : S8000x1.Idx, (i 0).val = (j 0).val → X1 i = X1' i)
    (h2 : ∀ i : S8000x64.Idx, (i 0).val = (j 0).val → X2 i = X2' i) :
    k1_pay2 (F := Ideal) X1 X0 X2 a c b j = k1_pay2 (F := Ideal) X1' X0' X2' a c b j := by
  unfold k1_pay2
  exact congrArg FloatOps.logistic (pay1_row X0 X0' X2 X2' X1 X1' a c b j h0 h1 h2)

end RowLocality

section Obligation

/-! ## The cut windows cut alike -/

/-- The three row-blocked inputs and the two outputs have one index map on the rows and one array height, so their
    blocks are cut to the same number of rows at every point; the feature axis is never cut. Decided over the grid. -/
theorem cut_sizes : ∀ t : Fin grid1.N,
    win1_0.xsize (grid1.coords t) 0 = win1_6.xsize (grid1.coords t) 0 ∧ win1_0.xsize (grid1.coords t) 1 = 64
    ∧ win1_1.xsize (grid1.coords t) 0 = win1_6.xsize (grid1.coords t) 0 ∧ win1_1.xsize (grid1.coords t) 1 = 1
    ∧ win1_2.xsize (grid1.coords t) 0 = win1_6.xsize (grid1.coords t) 0 ∧ win1_2.xsize (grid1.coords t) 1 = 64
    ∧ win1_7.xsize (grid1.coords t) 0 = win1_6.xsize (grid1.coords t) 0 := by decide +kernel

/-- Two fillings of one block agree wherever the transfer moves: there both hold the block. -/
theorem fill_eq_of_lt {G : Pipeline.Grid} (w : Window sig G) {α : Type} (i : G.Coords) (d d' : w.block.Idx → α)
    (g : (w.xblock i).Idx → α) (x : w.block.Idx) (h : ∀ a, (x a).val < w.xsize i a) : w.fill i d g x = w.fill i d' g x := by
  have hm : w.moved i x = true := (w.moved_iff i x).mpr h
  unfold Window.fill; rw [dif_pos hm, dif_pos hm]

/-- On the rows inside the arrays the first result does not depend on what the three cut input buffers hold past
    the arrays' end: entry `j` of the output's moved part sits in a row the inputs' transfers move too
    (`cut_sizes`), and reads that row only (`pay1_row`). -/
theorem cut_pay1 (t : Fin grid1.N) (X0 X0' X2 X2' : Vec Ideal S8000x64 .f32) (X1 X1' : Vec Ideal S8000x1 .bf16)
    (a c : Vec Ideal S1x64 .f32) (b : Vec Ideal S1x1 .f32)
    (h0 : ∀ i : S8000x64.Idx, (∀ a, (i a).val < win1_0.xsize (grid1.coords t) a) → X0 i = X0' i)
    (h1 : ∀ i : S8000x1.Idx, (∀ a, (i a).val < win1_1.xsize (grid1.coords t) a) → X1 i = X1' i)
    (h2 : ∀ i : S8000x64.Idx, (∀ a, (i a).val < win1_2.xsize (grid1.coords t) a) → X2 i = X2' i) :
    win1_6.cut (grid1.coords t) (k1_pay1 (F := Ideal) X1 X0 X2 a c b)
      = win1_6.cut (grid1.coords t) (k1_pay1 (F := Ideal) X1' X0' X2' a c b) := by
  obtain ⟨e00, e01, e10, e11, e20, e21, -⟩ := cut_sizes t
  funext j
  have hj : (j 0).val < win1_6.xsize (grid1.coords t) 0 := (j 0).isLt
  refine pay1_row X0 X0' X2 X2' X1 X1' a c b (win1_6.xinj (grid1.coords t) j) (fun i hi => h0 i fun a => ?_)
    (fun i hi => h1 i fun a => ?_) (fun i hi => h2 i fun a => ?_)
  · match a with
    | ⟨0, _⟩ => exact lt_of_eq_of_lt hi (e00 ▸ hj)
    | ⟨1, _⟩ => exact lt_of_lt_of_eq (i 1).isLt e01.symm
  · match a with
    | ⟨0, _⟩ => exact lt_of_eq_of_lt hi (e10 ▸ hj)
    | ⟨1, _⟩ => exact lt_of_lt_of_eq (i 1).isLt e11.symm
  · match a with
    | ⟨0, _⟩ => exact lt_of_eq_of_lt hi (e20 ▸ hj)
    | ⟨1, _⟩ => exact lt_of_lt_of_eq (i 1).isLt e21.symm

/-- The second result likewise (its moved part is cut as the first's). -/
theorem cut_pay2 (t : Fin grid1.N) (X0 X0' X2 X2' : Vec Ideal S8000x64 .f32) (X1 X1' : Vec Ideal S8000x1 .bf16)
    (a c : Vec Ideal S1x64 .f32) (b : Vec Ideal S1x1 .f32)
    (h0 : ∀ i : S8000x64.Idx, (∀ a, (i a).val < win1_0.xsize (grid1.coords t) a) → X0 i = X0' i)
    (h1 : ∀ i : S8000x1.Idx, (∀ a, (i a).val < win1_1.xsize (grid1.coords t) a) → X1 i = X1' i)
    (h2 : ∀ i : S8000x64.Idx, (∀ a, (i a).val < win1_2.xsize (grid1.coords t) a) → X2 i = X2' i) :
    win1_7.cut (grid1.coords t) (k1_pay2 (F := Ideal) X1 X0 X2 a c b)
      = win1_7.cut (grid1.coords t) (k1_pay2 (F := Ideal) X1' X0' X2' a c b) := by
  obtain ⟨e00, e01, e10, e11, e20, e21, e70⟩ := cut_sizes t
  funext j
  have hj : (j 0).val < win1_6.xsize (grid1.coords t) 0 := e70 ▸ (j 0).isLt
  refine pay2_row X0 X0' X2 X2' X1 X1' a c b (win1_7.xinj (grid1.coords t) j) (fun i hi => h0 i fun a => ?_)
    (fun i hi => h1 i fun a => ?_) (fun i hi => h2 i fun a => ?_)
  · match a with
    | ⟨0, _⟩ => exact lt_of_eq_of_lt hi (e00 ▸ hj)
    | ⟨1, _⟩ => exact lt_of_lt_of_eq (i 1).isLt e01.symm
  · match a with
    | ⟨0, _⟩ => exact lt_of_eq_of_lt hi (e10 ▸ hj)
    | ⟨1, _⟩ => exact lt_of_lt_of_eq (i 1).isLt e11.symm
  · match a with
    | ⟨0, _⟩ => exact lt_of_eq_of_lt hi (e20 ▸ hj)
    | ⟨1, _⟩ => exact lt_of_lt_of_eq (i 1).isLt e21.symm

/-! ## The body obligation -/

local notation "𝕄" => MT nD τ sig Unit (Elt Ideal) ℕ (UR sig nD τ) ℕ

variable (V : (c : Dev nD) → (b : Ref sig .tc) → Buf (Elt Ideal) ((c : Thread nD τ).loc b))

/-- What the body is called with at point `t`: the invariant, the core's tallies, and each window's current buffer
    at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns: the five cut windows' buffers stated on the rows inside the arrays only, the three uncut
    ones' exactly. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (∃ d, owns (c : Thread nD τ) (st1_6 t) fullShare (win1_6.fill (grid1.coords t) d (win1_6.cut (grid1.coords t) ((dat1 V c).after 6 t))))
    ∗ (∃ d, owns (c : Thread nD τ) (st1_7 t) fullShare (win1_7.fill (grid1.coords t) d (win1_7.cut (grid1.coords t) ((dat1 V c).after 7 t)))))

/-- The body at any point. The three row-blocked inputs arrive holding their blocks filled out past the arrays' end
    with whatever the buffers held (`before1_0 … before1_2`), the weights and the bias holding their blocks, the
    outputs holding anything; the run leaves the inputs as they were and the outputs at the two results of those
    buffers. On the rows inside the arrays the inputs' buffers are the blocks (`Window.cut_fill`) and the results
    are the results of the zero-filled blocks (`cut_pay1`, `cut_pay2`): all a cut window's obligation states. -/
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 (F := Ideal) c Set.univ _ _ _ _ _ _ _ _ _ _ _ _ _ _ _ _ _
    (win1_0.fill (grid1.coords t) d0 (iblk1 V c 0 t)) (win1_1.fill (grid1.coords t) d1 (iblk1 V c 1 t))
    (win1_2.fill (grid1.coords t) d2 (iblk1 V c 2 t)) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  have hx0 : win1_0.cut (grid1.coords t) (full1_0 V c t) = iblk1 V c 0 t := by unfold full1_0; exact win1_0.cut_fill _ _ _
  have hx1 : win1_1.cut (grid1.coords t) (full1_1 V c t) = iblk1 V c 1 t := by unfold full1_1; exact win1_1.cut_fill _ _ _
  have hx2 : win1_2.cut (grid1.coords t) (full1_2 V c t) = iblk1 V c 2 t := by unfold full1_2; exact win1_2.cut_fill _ _ _
  -- the filled buffers and the zero-filled blocks agree wherever the transfers move
  have h0 : ∀ i : S8000x64.Idx, (∀ a, (i a).val < win1_0.xsize (grid1.coords t) a) →
      win1_0.fill (grid1.coords t) d0 (iblk1 V c 0 t) i = full1_0 V c t i := fun i hi => by
    unfold full1_0; exact fill_eq_of_lt win1_0 (grid1.coords t) _ _ _ i hi
  have h1 : ∀ i : S8000x1.Idx, (∀ a, (i a).val < win1_1.xsize (grid1.coords t) a) →
      win1_1.fill (grid1.coords t) d1 (iblk1 V c 1 t) i = full1_1 V c t i := fun i hi => by
    unfold full1_1; exact fill_eq_of_lt win1_1 (grid1.coords t) _ _ _ i hi
  have h2 : ∀ i : S8000x64.Idx, (∀ a, (i a).val < win1_2.xsize (grid1.coords t) a) →
      win1_2.fill (grid1.coords t) d2 (iblk1 V c 2 t) i = full1_2 V c t i := fun i hi => by
    unfold full1_2; exact fill_eq_of_lt win1_2 (grid1.coords t) _ _ _ i hi
  isplitl [H0]
  · iexists d0; rw [hx0]; iexact H0
  isplitl [H1]
  · iexists d1; rw [hx1]; iexact H1
  isplitl [H2]
  · iexists d2; rw [hx2]; iexact H2
  isplitl [H3]; · iexact H3
  isplitl [H4]; · iexact H4
  isplitl [H5]; · iexact H5
  isplitl [H6]
  · iexists _
    rw [win1_6.fill_congr_cut (grid1.coords t) (cut_pay1 t _ _ _ _ _ _ (iblk1 V c 3 t) (iblk1 V c 5 t) (iblk1 V c 4 t) h0 h1 h2)]
    iexact H6
  · iexists _
    rw [win1_7.fill_congr_cut (grid1.coords t) (cut_pay2 t _ _ _ _ _ _ (iblk1 V c 3 t) (iblk1 V c 5 t) (iblk1 V c 4 t) h0 h1 h2)]
    iexact H7

/-- The library's body obligation for the cut windows, at every point of region 1, at the ideal values. -/
theorem body_obligation1 (c : Dev nD) :
    Pipeline.BodyObligationLoose (dat1 (F := Ideal) V c) (defs₀ (F := Ideal)) Variants.none () Set.univ := fun t => by
  rw [bigSep_W1, bigSep_W1]
  exact sound_body1 V c t

end Obligation

end Cert.KernelIdeal.Sage

end
-- ==== Proof.RunAll.lean ====
import proofs.«414274_j35485019799946_3_alg».proof.Proof.Data
import proofs.«414274_j35485019799946_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-!
The run of the whole program, for either reading of region 1's proof data.

@main is seven items: three stretches of host operations, pipeline 0, two stretches, pipeline 1. Between two items
core `c` holds every unscoped buffer at a named valuation: the launch memory folded through the stretches, and at
pipeline 0's exit its result array at what the ten write-backs leave. Pipeline 1's windows may be FORGOTTEN
(`fgt1`): a forgotten window's buffer is handed to the body and taken back at contents nothing names, and of its
array the run then says only that it holds what some write-backs may have left. With nothing forgotten the two
result arrays end at what the proof data name.
-/

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two region entries -/

/-- What pipeline 0 is entered with: the launch memory after the first three host stretches. -/
abbrev Vin0 : (c : Dev nD) → (b : Ref sig .tc) → Buf (Elt F) ((c : Thread nD τ).loc b) := fun c b => Gen.V3 m c b

/-- What pipeline 0 leaves: its arrays at what the write-backs leave, every other buffer as entered; read at every
    TensorCore reference (only `main_v17` differs from the entry contents). -/
def outsK : Gen.Outs (F := F) := fun _ r c =>
  Pipeline.withArrays spec0 c (Gen.V3 m c) (fun w => (dat0 (Vin0 m) c).arrAt w cfg0.N) (Proc.devRef .tc r)

theorem outsK_v17 (c : Dev nD) : outsK m 4 main_v17 c = (dat0 (Vin0 m) c).arrAt 6 cfg0.N :=
  Pipeline.withArrays_arr spec0 launch0.win.arr_inj c _ _ 6

/-- What pipeline 1 is entered with. -/
abbrev Vin1 : (c : Dev nD) → (b : Ref sig .tc) → Buf (Elt F) ((c : Thread nD τ).loc b) := fun c b => Gen.V6 m (outsK m) c b

/-! ## The proof data family -/

/-- Both pipelines' exact proof data, each at its region's entry contents. -/
def pdatsD : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

variable (fgt1 : Fin cfg1.W → Bool)

/-- Which windows are forgotten: none of pipeline 0's, `fgt1` of pipeline 1's. -/
def fgts : (p : Fin 2) → Fin (Pipeline.pin (pcfgs (F := F)) adm p).W → Bool
  | ⟨0, _⟩ => fun _ => false
  | ⟨1, _⟩ => fgt1

/-- The family read relationally, pipeline 1's marked windows forgotten. -/
def rdats : (p : Fin 2) → (c : Dev nD) → RDat τ (Elt F) Unit ℕ (UR sig nD τ) ℕ (Pipeline.pin (pcfgs (F := F)) adm p) c
  | ⟨0, _⟩ => fun c => (dat0 (Vin0 m) c).toRForget fun _ => false
  | ⟨1, _⟩ => fun c => (dat1 (Vin1 m) c).toRForget fgt1

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At pipeline 0's exit each of its arrays holds what the write-backs leave and every other buffer what it held. -/
theorem hF0 (c : Dev nD) (w : Fin cfg0.W) : (dat0 (Vin0 m) c).arrAt w cfg0.N = Gen.V4 m (outsK m) c (Pipeline.arrRef spec0 w) := by
  match w with
  | ⟨6, _⟩ => exact ((Function.update_self (β := fun b : DevRef τ sig => b.ty.Contents (Elt F)) (Proc.devRef .tc main_v17) _ _).trans (outsK_v17 m c)).symm
  | ⟨0, _⟩ => exact ((dat0 (Vin0 m) c).arrAt_in 0 rfl _).trans ((A_eq0 (Vin0 m) c 0).trans (Gen.V4_of m (outsK m) c main_v15 (by decide)).symm)
  | ⟨1, _⟩ => exact ((dat0 (Vin0 m) c).arrAt_in 1 rfl _).trans ((A_eq0 (Vin0 m) c 1).trans (Gen.V4_of m (outsK m) c main_v11 (by decide)).symm)
  | ⟨2, _⟩ => exact ((dat0 (Vin0 m) c).arrAt_in 2 rfl _).trans ((A_eq0 (Vin0 m) c 2).trans (Gen.V4_of m (outsK m) c main_arg0 (by decide)).symm)
  | ⟨3, _⟩ => exact ((dat0 (Vin0 m) c).arrAt_in 3 rfl _).trans ((A_eq0 (Vin0 m) c 3).trans (Gen.V4_of m (outsK m) c main_arg2 (by decide)).symm)
  | ⟨4, _⟩ => exact ((dat0 (Vin0 m) c).arrAt_in 4 rfl _).trans ((A_eq0 (Vin0 m) c 4).trans (Gen.V4_of m (outsK m) c main_v16 (by decide)).symm)
  | ⟨5, _⟩ => exact ((dat0 (Vin0 m) c).arrAt_in 5 rfl _).trans ((A_eq0 (Vin0 m) c 5).trans (Gen.V4_of m (outsK m) c main_arg4 (by decide)).symm)

theorem hrest0 (c : Dev nD) : ∀ b : Ref sig .tc, b ∉ Finset.univ.image (Pipeline.arrRef spec0) → Gen.V4 m (outsK m) c b = Gen.V3 m c b :=
  fun b hb => Gen.V4_of m (outsK m) c b (by
    intro h
    have : b = main_v17 := by simpa using h
    exact hb (Finset.mem_image.mpr ⟨6, Finset.mem_univ _, this.symm⟩))

theorem rshare_full {cfg : Cfg sig Λ₀} {c : Dev nD} (rd : RDat τ (Elt F) Unit ℕ (UR sig nD τ) ℕ cfg c) (h : ∀ w, rd.q w = fullShare) :
    ∀ w, rd.share w = fullShare := fun w => by unfold RDat.share; split <;> [rfl; exact h w]

variable (hb0 : ∀ c, BodyObligation (dat0 (F := F) (Vin0 m) c) (defs₀ (F := F)) Variants.none () Set.univ)
variable (hb1 : ∀ c, BodyObligationLoose (dat1 (F := F) (Vin1 m) c) (defs₀ (F := F)) Variants.none () Set.univ fgt1)

set_option backward.isDefEq.respectTransparency.types false in
/-- Pipeline 0 over the thread state: entered from every unscoped buffer at the third stretch's contents, left with
    its result array at what the write-backs leave. -/
def reg0 : Pipeline.RDat.RegionSeg (pcfgs (F := F)) adm (rdats m fgt1) () defs₀ 𝒱₀ L lv 0 where
  win := launch0.win.to₀
  block_pos := launch0.block_pos
  stage_whole := launch0.stage_whole
  K := PEmpty
  osem k := k.elim
  ho := Pipeline.OwnSemFacts.none _
  hbody c := (hb0 c).toRForget
  hwaits := Pipeline.RDat.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.RDat.arrays_of_unscopedBufs (p := 0) (pcfgs (F := F)) adm (rdats m fgt1) launch0.win launch0.arr_whole c
      (rshare_full (rdats m fgt1 0 c) fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsD m) ((pdatsD m 0 c).share_full fun _ => rfl)
      (Vin0 m c) (fun b => Gen.V4 m (outsK m) c b) ((pdatsD m 0 c).arrAt · cfg0.N) (hF0 m c) (hrest0 m c)
    rw [Pipeline.unscopedBufs_held] at hjoin
    have hpost : (rdats m fgt1 0 c).arraysAt cfg0.N ⊢ ((pdatsD m 0 c).arrays ((pdatsD m 0 c).arrAt · cfg0.N) : sProp 𝕄) :=
      (dat0 (Vin0 m) c).toR_arraysAt_post cfg0.N
    iintro ⟨Ha, HO, HY, Hrest⟩
    ihave Ha' := hpost $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

/-- The last thread state: pipeline 1's arrays at some contents the write-backs may have left, every other unscoped
    buffer as pipeline 1 was entered with it, the generator register at some state. -/
abbrev Tₙ (c : Dev nD) : sProp 𝕄 :=
  iprop((rdats m fgt1 1 c).arraysAt cfg1.N ∗ Pipeline.unscopedRest (Ix := Unit) (Name := ℕ) (U := UR sig nD τ) (Lvl := ℕ) spec1 c (Vin1 m c) ∗ ∃ r, prngReg c r)

set_option backward.isDefEq.respectTransparency.types false in
/-- Pipeline 1 over the thread state: entered from every unscoped buffer at the fifth stretch's contents. -/
def reg1 : Pipeline.RDat.RegionSeg (pcfgs (F := F)) adm (rdats m fgt1) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ L lv 1 fun _ _ => rfl
  pre c := iprop(StableHlo.held (c : Thread nD τ) (Pipeline.ucRefs τ sig) (Gen.V6 m (outsK m) c) ∗ R c)
  post c := iprop(Tₙ m fgt1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.RDat.arrays_of_unscopedBufs (p := 1) (pcfgs (F := F)) adm (rdats m fgt1) launch1.win launch1.arr_whole c
      (rshare_full (rdats m fgt1 1 c) fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt1 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt1 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## @main as segments, and the launch -/

/-- @main's seven items in order. -/
abbrev segs : List (Pipeline.RDat.Seg (pcfgs (F := F)) adm (rdats m fgt1) () defs₀ 𝒱₀ L lv) :=
  [ .host (Gen.seg0 m 𝒱₀ L lv E), .host (Gen.seg1 m 𝒱₀ L lv E), .host (Gen.seg2 m 𝒱₀ L lv E),
    .region (reg0 m fgt1 hb0),
    .host (Gen.seg4 m (outsK m) 𝒱₀ L lv E), .host (Gen.seg5 m (outsK m) 𝒱₀ L lv E),
    .region (reg1 m fgt1 hb1) ]

/-- The unscoped buffers that are no array of pipeline 1. -/
abbrev rest1 : Finset (Ref sig .tc) :=
  (Finset.univ.filter fun b : Ref sig .tc => ¬ b.isScoped) \ Finset.univ.image (Pipeline.arrRef spec1)

/-- What the run says of a final memory on core `c`: each array of pipeline 1 holds contents its write-backs may
    have left, and every other unscoped buffer what pipeline 1 was entered with. -/
def Fin1 (c : Dev nD) (s : MemSt nD τ sig (Elt F)) : Prop :=
  (∀ w : Fin cfg1.W, (rdats m fgt1 1 c).ArrAt w cfg1.N (s.mem ((cfg1.win w).arr.view.loc (c : Thread nD τ))))
  ∧ ∀ b ∈ rest1, s.mem ((c : Thread nD τ).loc b) = Vin1 m c b

include hb0 hb1 in
set_option backward.isDefEq.respectTransparency.types false in
/-- THE RUN: from any memory with zero counters every weakly fair execution of @main terminates, nothing faulting,
    and every final memory satisfies `Fin1` on every core. -/
theorem run_all : θ_run defs (onTc (τ := τ) (main (F := F))) ⟨m, fun _ => 0, ρ⟩ (fun r => ∀ c : Dev nD, Fin1 m fgt1 c r.2) :=
  Pipeline.RDat.θ_run_regions_kit (pcfgs (F := F)) adm (rdats m fgt1) () cellOf_inj emb₁ defs₀ 𝒱₀ L lv m ρ main (segs m fgt1 hb0 hb1)
    (fun c Q => by
      rewrite [main_chain c, Pipeline.RDat.Seg.run_eq_chain,
        show (segs m fgt1 hb0 hb1).map Pipeline.RDat.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()) ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m fgt1)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => Fin1 m fgt1 c s)
    (hfin := fun c s' => by
      iintro ⟨⟨Ha, Hrest, -⟩, HSI⟩
      ihave H1 := (Pipeline.RDat.arrays_read (pcfgs (F := F)) adm (rdats m fgt1) (p := 1) launch1.arr_whole c cfg1.N s') $$ [Ha HSI]
      · isplitl [Ha] <;> iassumption
      icases H1 with ⟨%h1, HSI⟩
      unfold Pipeline.unscopedRest
      ihave H2 := (pointsTo_read_all rest1 (fun b => (c : Thread nD τ).loc b) (fun b => Vin1 m c b) s') $$ [Hrest HSI]
      · isplitl [Hrest] <;> iassumption
      icases H2 with ⟨%h2, HSI⟩
      imodintro
      isplitr
      · ipureintro; exact ⟨h1, h2⟩
      iexact HSI)
    (hQ := fun _ h => h)

/-! ## Reading the run's post -/

/-- No host stretch writes an argument and pipeline 0 may change none: pipeline 1 is entered with each as launched. -/
theorem V6_main_arg0 (outs : Gen.Outs (F := F)) (c : Dev nD) : Gen.V6 m outs c main_arg0 = m ((c : Thread nD τ).loc main_arg0) :=
  (Gen.V6_of m outs c main_arg0 (by decide)).trans <| (Gen.V5_of m outs c main_arg0 (by decide)).trans <| (Gen.V4_of m outs c main_arg0 (by decide)).trans <| (Gen.V3_of m c main_arg0 (by decide)).trans <| (Gen.V2_of m c main_arg0 (by decide)).trans <| (Gen.V1_of m c main_arg0 (by decide)).trans rfl
theorem V6_main_arg1 (outs : Gen.Outs (F := F)) (c : Dev nD) : Gen.V6 m outs c main_arg1 = m ((c : Thread nD τ).loc main_arg1) :=
  (Gen.V6_of m outs c main_arg1 (by decide)).trans <| (Gen.V5_of m outs c main_arg1 (by decide)).trans <| (Gen.V4_of m outs c main_arg1 (by decide)).trans <| (Gen.V3_of m c main_arg1 (by decide)).trans <| (Gen.V2_of m c main_arg1 (by decide)).trans <| (Gen.V1_of m c main_arg1 (by decide)).trans rfl
theorem V6_main_arg2 (outs : Gen.Outs (F := F)) (c : Dev nD) : Gen.V6 m outs c main_arg2 = m ((c : Thread nD τ).loc main_arg2) :=
  (Gen.V6_of m outs c main_arg2 (by decide)).trans <| (Gen.V5_of m outs c main_arg2 (by decide)).trans <| (Gen.V4_of m outs c main_arg2 (by decide)).trans <| (Gen.V3_of m c main_arg2 (by decide)).trans <| (Gen.V2_of m c main_arg2 (by decide)).trans <| (Gen.V1_of m c main_arg2 (by decide)).trans rfl
theorem V6_main_arg3 (outs : Gen.Outs (F := F)) (c : Dev nD) : Gen.V6 m outs c main_arg3 = m ((c : Thread nD τ).loc main_arg3) :=
  (Gen.V6_of m outs c main_arg3 (by decide)).trans <| (Gen.V5_of m outs c main_arg3 (by decide)).trans <| (Gen.V4_of m outs c main_arg3 (by decide)).trans <| (Gen.V3_of m c main_arg3 (by decide)).trans <| (Gen.V2_of m c main_arg3 (by decide)).trans <| (Gen.V1_of m c main_arg3 (by decide)).trans rfl
theorem V6_main_arg4 (outs : Gen.Outs (F := F)) (c : Dev nD) : Gen.V6 m outs c main_arg4 = m ((c : Thread nD τ).loc main_arg4) :=
  (Gen.V6_of m outs c main_arg4 (by decide)).trans <| (Gen.V5_of m outs c main_arg4 (by decide)).trans <| (Gen.V4_of m outs c main_arg4 (by decide)).trans <| (Gen.V3_of m c main_arg4 (by decide)).trans <| (Gen.V2_of m c main_arg4 (by decide)).trans <| (Gen.V1_of m c main_arg4 (by decide)).trans rfl
theorem V6_main_arg5 (outs : Gen.Outs (F := F)) (c : Dev nD) : Gen.V6 m outs c main_arg5 = m ((c : Thread nD τ).loc main_arg5) :=
  (Gen.V6_of m outs c main_arg5 (by decide)).trans <| (Gen.V5_of m outs c main_arg5 (by decide)).trans <| (Gen.V4_of m outs c main_arg5 (by decide)).trans <| (Gen.V3_of m c main_arg5 (by decide)).trans <| (Gen.V2_of m c main_arg5 (by decide)).trans <| (Gen.V1_of m c main_arg5 (by decide)).trans rfl
theorem V6_main_arg6 (outs : Gen.Outs (F := F)) (c : Dev nD) : Gen.V6 m outs c main_arg6 = m ((c : Thread nD τ).loc main_arg6) :=
  (Gen.V6_of m outs c main_arg6 (by decide)).trans <| (Gen.V5_of m outs c main_arg6 (by decide)).trans <| (Gen.V4_of m outs c main_arg6 (by decide)).trans <| (Gen.V3_of m c main_arg6 (by decide)).trans <| (Gen.V2_of m c main_arg6 (by decide)).trans <| (Gen.V1_of m c main_arg6 (by decide)).trans rfl
theorem V6_main_arg7 (outs : Gen.Outs (F := F)) (c : Dev nD) : Gen.V6 m outs c main_arg7 = m ((c : Thread nD τ).loc main_arg7) :=
  (Gen.V6_of m outs c main_arg7 (by decide)).trans <| (Gen.V5_of m outs c main_arg7 (by decide)).trans <| (Gen.V4_of m outs c main_arg7 (by decide)).trans <| (Gen.V3_of m c main_arg7 (by decide)).trans <| (Gen.V2_of m c main_arg7 (by decide)).trans <| (Gen.V1_of m c main_arg7 (by decide)).trans rfl

theorem mem_rest1 (b : Ref sig .tc) (h1 : ¬ b.isScoped) (h2 : b ∉ Finset.univ.image (Pipeline.arrRef spec1)) : b ∈ rest1 :=
  Finset.mem_sdiff.mpr ⟨Finset.mem_filter.mpr ⟨Finset.mem_univ _, h1⟩, h2⟩

/-- The arguments end as launched: six bypass pipeline 1, two are input windows' arrays of it, which no write-back
    touches. -/
theorem args_of_fin (s : MemSt nD τ sig (Elt F)) (c : Dev nD) (h : Fin1 m fgt1 c s) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7) := by
  have hin3 : s.mem ((cfg1.win 3).arr.view.loc (c : Thread nD τ)) = (rdats m fgt1 1 c).A 3 :=
    (congrFun (RDat.ArrAt_in (rdats m fgt1 1 c) 3 rfl cfg1.N) _).mp (h.1 3)
  have hin5 : s.mem ((cfg1.win 5).arr.view.loc (c : Thread nD τ)) = (rdats m fgt1 1 c).A 5 :=
    (congrFun (RDat.ArrAt_in (rdats m fgt1 1 c) 5 rfl cfg1.N) _).mp (h.1 5)
  exact ⟨(h.2 main_arg0 (mem_rest1 _ (by decide) (by decide))).trans (V6_main_arg0 m (outsK m) c),
    (h.2 main_arg1 (mem_rest1 _ (by decide) (by decide))).trans (V6_main_arg1 m (outsK m) c),
    (h.2 main_arg2 (mem_rest1 _ (by decide) (by decide))).trans (V6_main_arg2 m (outsK m) c),
    (h.2 main_arg3 (mem_rest1 _ (by decide) (by decide))).trans (V6_main_arg3 m (outsK m) c),
    (h.2 main_arg4 (mem_rest1 _ (by decide) (by decide))).trans (V6_main_arg4 m (outsK m) c),
    hin3.trans (V6_main_arg5 m (outsK m) c),
    (h.2 main_arg6 (mem_rest1 _ (by decide) (by decide))).trans (V6_main_arg6 m (outsK m) c),
    hin5.trans (V6_main_arg7 m (outsK m) c)⟩

/-- A window of pipeline 1 that is not forgotten ends holding what the proof data name. -/
theorem out_of_fin (s : MemSt nD τ sig (Elt F)) (c : Dev nD) (h : Fin1 m fgt1 c s) (w : Fin cfg1.W) (hw : fgt1 w = false) :
    s.mem ((cfg1.win w).arr.view.loc (c : Thread nD τ)) = (dat1 (Vin1 m) c).arrAt w cfg1.N :=
  ((dat1 (Vin1 m) c).toRForget_arrAt_iff hw cfg1.N _).mp (h.1 w)

include hb0 hb1 in
/-- THE FRAME: every weakly fair execution terminates and the argument arrays end as launched. -/
theorem frame_gen : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_of_fin m fgt1 r.2 c (h c)) (run_all m ρ fgt1 hb0 hb1)

end Cert.KernelIdeal.Sage

end
-- ==== Proof.Spec.lean ====
import Idealize.ShloMosaic.PureOps.Ideal
import Idealize.ShloMosaic.Lib.ValueIdx

/-!
The mathematics both programs compute, over the extended reals.

A graph on 100000 nodes with 1000000 edges; every node carries a row of 64 features. A layer takes, for every node
`r`, the sum of the feature rows gathered along the edges that end at `r` (`summed`), divides it by the clamped
in-degree `deg r` (the neighbours' mean), multiplies the mean by `Wlᵀ`, the node's own row by `Wrᵀ`, and adds the
two products and the bias. Layer 0 (64 → 64 features) is followed by `max · 0`; layer 1 (64 → 1) by nothing, and the
second result is the logistic function of the first. The gather along the edges and the sum into the end nodes are
the same operations in both programs; they enter here as parameters `gth` and `sa`.
-/

noncomputable section

open scoped BigOperators

namespace Cert.SageSpec

open Idealize.ShloMosaic Idealize.ShloMosaic.ValueIdx

abbrev SN64 : Shape := ⟨2, ![100000, 64]⟩
abbrev SN1 : Shape := ⟨2, ![100000, 1]⟩
abbrev SN : Shape := ⟨1, ![100000]⟩
abbrev SE64 : Shape := ⟨2, ![1000000, 64]⟩
abbrev SW : Shape := ⟨2, ![64, 64]⟩
abbrev SW1 : Shape := ⟨2, ![1, 64]⟩
abbrev SB : Shape := ⟨1, ![64]⟩
abbrev SB1 : Shape := ⟨1, ![1]⟩

/-- Layer 0 before the clamp at zero, at node `r` and output feature `j`:
    `∑ₖ (summed r k / deg r) · Wl j k + ∑ₖ x r k · Wr j k + bl j`. -/
def conv0At (deg : SN.Idx → EReal) (summed x : SN64.Idx → EReal) (Wl Wr : SW.Idx → EReal) (bl : SB.Idx → EReal)
    (r : Fin 100000) (j : Fin 64) : EReal :=
  (∑ k : Fin 64, Ideal.div (summed (ix2 r k)) (deg (ix1 r)) * Wl (ix2 j k)) + (∑ k : Fin 64, x (ix2 r k) * Wr (ix2 j k))
    + bl (ix1 j)

/-- Layer 0: the clamp at zero of `conv0At`. -/
def layer0 (deg : SN.Idx → EReal) (summed x : SN64.Idx → EReal) (Wl Wr : SW.Idx → EReal) (bl : SB.Idx → EReal) :
    SN64.Idx → EReal :=
  fun i => max (conv0At deg summed x Wl Wr bl (i 0) (i 1)) 0

theorem layer0_apply (deg : SN.Idx → EReal) (summed x : SN64.Idx → EReal) (Wl Wr : SW.Idx → EReal) (bl : SB.Idx → EReal)
    (r : Fin 100000) (j : Fin 64) :
    layer0 deg summed x Wl Wr bl (ix2 r j) = max (conv0At deg summed x Wl Wr bl r j) 0 := rfl

/-- Layer 1 at node `r` (one output feature):
    `∑ₖ (summed r k / deg r) · Wl 0 k + ∑ₖ h r k · Wr 0 k + bl 0`. -/
def conv1At (deg : SN.Idx → EReal) (summed h : SN64.Idx → EReal) (Wl Wr : SW1.Idx → EReal) (bl : SB1.Idx → EReal)
    (r : Fin 100000) : EReal :=
  (∑ k : Fin 64, Ideal.div (summed (ix2 r k)) (deg (ix1 r)) * Wl (ix2 (0 : Fin 1) k))
    + (∑ k : Fin 64, h (ix2 r k) * Wr (ix2 (0 : Fin 1) k)) + bl (ix1 (0 : Fin 1))

def layer1 (deg : SN.Idx → EReal) (summed h : SN64.Idx → EReal) (Wl Wr : SW1.Idx → EReal) (bl : SB1.Idx → EReal) :
    SN1.Idx → EReal :=
  fun i => conv1At deg summed h Wl Wr bl (i 0)

theorem layer1_apply (deg : SN.Idx → EReal) (summed h : SN64.Idx → EReal) (Wl Wr : SW1.Idx → EReal) (bl : SB1.Idx → EReal)
    (r : Fin 100000) (z : Fin 1) :
    layer1 deg summed h Wl Wr bl (ix2 r z) = conv1At deg summed h Wl Wr bl r := rfl

/-- The first result: two layers, the gather `gth` along the edges and the sum `sa` into their end nodes between. -/
def model (gth : (SN64.Idx → EReal) → SE64.Idx → EReal) (sa : (SE64.Idx → EReal) → SN64.Idx → EReal)
    (deg : SN.Idx → EReal) (x : SN64.Idx → EReal) (Wl0 Wr0 : SW.Idx → EReal) (bl0 : SB.Idx → EReal)
    (Wl1 Wr1 : SW1.Idx → EReal) (bl1 : SB1.Idx → EReal) : SN1.Idx → EReal :=
  layer1 deg (sa (gth (layer0 deg (sa (gth x)) x Wl0 Wr0 bl0))) (layer0 deg (sa (gth x)) x Wl0 Wr0 bl0) Wl1 Wr1 bl1

/-- The second result: the logistic function of the first, element by element. -/
def sigm (y : SN1.Idx → EReal) : SN1.Idx → EReal := fun i => Ideal.logistic (y i)

end Cert.SageSpec

end
-- ==== Proof.KernelValue.lean ====
import proofs.«414274_j35485019799946_3_alg».proof.Proof.Data
import proofs.«414274_j35485019799946_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The three output arrays of the two pipelines, over the extended reals, each as one function of the arrays its region
is entered with.

Region 0 runs ten points; point `t` holds rows `t · 10000 … t · 10000 + 9999` of the summed neighbour features, of the
clamped in-degree column and of the node features, and the whole weight matrices and bias row. Its one store writes,
at row `p` and feature `q` of the block, `max (∑ₖ (summed p k / deg p) · Wl q k + ∑ₖ x p k · Wr q k + b q) 0`: both products
are contractions of the block's row `p` against row `q` of a weight matrix (the matrix enters transposed), a change of
float format is the identity, and the accumulator is the zero block. Row `p` of block `t` is row `t · 10000 + p` of each
array, so what point `t` writes back is block `t` of layer 0 of the arrays; the ten blocks tile the 100000 rows, row `r`
lying in block `r / 10000`, so the output array ends holding layer 0.

Region 1 runs thirteen points over blocks of 8000 rows; the last block starts at row 96000 and only its first 4000
rows are rows of the arrays. The staging blocks of the three row-blocked inputs are the arrays' rows on the rows
inside the array; a write-back moves only those rows. On them the two stores are layer 1 (one output feature, no
clamp) and its logistic function at row `t · 8000 + p`; twelve whole blocks and the 4000 rows of the thirteenth tile the
100000 rows, row `r` lying in block `r / 8000`, and the two output columns end holding layer 1 and its logistic function.
-/

noncomputable section

namespace Cert.KernelIdeal.Sage

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Idealize.ShloMosaic.ValueIdx
open Cert.SageSpec
open scoped BigOperators

/-! ## The two contractions at an index -/

/-- The operand indices of the 10000 × 64 by 64 × 64 contraction at output index `i` and contraction position `q`:
    the left operand is read at `(i 0, q)`, the right one at `(q, i 1)`. -/
theorem lhs0_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs0_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs0_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs0_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block of 10000 rows times a 64 × 64 matrix, added into the zero block: the entry at row `p` and column `q` is
    the sum over `k` of the row's entry `k` times the matrix's entry `(k, q)`. -/
theorem matmul0_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- The operand indices of the 8000 × 64 by 64 × 1 contraction at output index `i` and contraction position `q`:
    the left operand is read at `(i 0, q)`, the right one at `(q, i 1)`. -/
theorem lhs1_0 (i : S8000x1.Idx) (q : dot_S8000x64_S64x1_S8000x1_1_0_0_1_n_n.contr.Idx) :
    (dot_S8000x64_S64x1_S8000x1_1_0_0_1_n_n.lhsIdx i q 0).val = (i 0).val := by
  unfold DotDims.lhsIdx
  rw [dif_neg (show ¬(0 : Fin S8000x64.rank) ∈ dot_S8000x64_S64x1_S8000x1_1_0_0_1_n_n.lhsBatch by decide), dif_pos (show (0 : Fin S8000x64.rank) ∈ dot_S8000x64_S64x1_S8000x1_1_0_0_1_n_n.lhsNonContracting by decide)]
  rfl
theorem lhs1_1 (i : S8000x1.Idx) (q : dot_S8000x64_S64x1_S8000x1_1_0_0_1_n_n.contr.Idx) :
    (dot_S8000x64_S64x1_S8000x1_1_0_0_1_n_n.lhsIdx i q 1).val = (q ⟨0, by decide⟩).val :=
  dot_S8000x64_S64x1_S8000x1_1_0_0_1_n_n.lhsIdx_val_of_single rfl i q
theorem rhs1_0 (i : S8000x1.Idx) (q : dot_S8000x64_S64x1_S8000x1_1_0_0_1_n_n.contr.Idx) :
    (dot_S8000x64_S64x1_S8000x1_1_0_0_1_n_n.rhsIdx i q 0).val = (q ⟨0, by decide⟩).val :=
  dot_S8000x64_S64x1_S8000x1_1_0_0_1_n_n.rhsIdx_val_of_single rfl i q
theorem rhs1_1 (i : S8000x1.Idx) (q : dot_S8000x64_S64x1_S8000x1_1_0_0_1_n_n.contr.Idx) :
    (dot_S8000x64_S64x1_S8000x1_1_0_0_1_n_n.rhsIdx i q 1).val = (i 1).val := by
  unfold DotDims.rhsIdx
  rw [dif_neg (show ¬(1 : Fin S64x1.rank) ∈ dot_S8000x64_S64x1_S8000x1_1_0_0_1_n_n.rhsBatch by decide), dif_pos (show (1 : Fin S64x1.rank) ∈ dot_S8000x64_S64x1_S8000x1_1_0_0_1_n_n.rhsNonContracting by decide)]
  rfl

/-- A block of 8000 rows times a 64 × 1 column, added into the zero column: the entry at row `p` is the sum over `k`
    of the row's entry `k` times the column's entry `k`. -/
theorem matmul1_apply (l : FVec Ideal S8000x64 .bf16) (r : FVec Ideal S64x1 .bf16) (p : Fin 8000) (z : Fin 1) :
    matmul dot_S8000x64_S64x1_S8000x1_1_0_0_1_n_n none l r (constant (F := Ideal) S8000x1 .f32 0x00000000#32) (ix2 p z)
      = ∑ k : Fin 64, l (ix2 p k) * r (ix2 k z) := by
  simp only [matmul]
  rw [Ideal.matmul_constant_zero_apply, ← Equiv.sum_comp (contrEquiv1 dot_S8000x64_S64x1_S8000x1_1_0_0_1_n_n 64 rfl rfl).symm]
  refine Finset.sum_congr rfl fun k _ => ?_
  have hk := contrEquiv1_symm_val dot_S8000x64_S64x1_S8000x1_1_0_0_1_n_n 64 rfl rfl k
  have el : dot_S8000x64_S64x1_S8000x1_1_0_0_1_n_n.lhsIdx (ix2 p z) ((contrEquiv1 dot_S8000x64_S64x1_S8000x1_1_0_0_1_n_n 64 rfl rfl).symm k) = ix2 p k := funext fun a => Fin.ext (by
    match a with
    | ⟨0, _⟩ => exact lhs1_0 _ _
    | ⟨1, _⟩ => exact (lhs1_1 _ _).trans hk)
  have er : dot_S8000x64_S64x1_S8000x1_1_0_0_1_n_n.rhsIdx (ix2 p z) ((contrEquiv1 dot_S8000x64_S64x1_S8000x1_1_0_0_1_n_n 64 rfl rfl).symm k) = ix2 k z := funext fun a => Fin.ext (by
    match a with
    | ⟨0, _⟩ => exact (rhs1_0 _ _).trans hk
    | ⟨1, _⟩ => exact rhs1_1 _ _)
  rw [el, er]

/-! ## A column broadcast along the rows -/

/-- An `[a, 1]` column broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The weights transposed -/

/-- A transposed weight matrix reads, at `(k, q)`, the matrix at `(q, k)`; -/
theorem transpose0_apply {φ : FTy} (x : FVec Ideal S64x64 φ) (k q : Fin 64) :
    transpose S64x64 [1, 0] x transposes_S64x64_p1_0_S64x64 (ix2 k q) = x (ix2 q k) :=
  transpose_apply _ x _ _ _ fun c => match c with | ⟨0, _⟩ => rfl | ⟨1, _⟩ => rfl

/-- a transposed weight row is a column that reads, at `(k, z)`, the row at `(z, k)`. -/
theorem transpose1_apply {φ : FTy} (x : FVec Ideal S1x64 φ) (k : Fin 64) (z : Fin 1) :
    transpose S64x1 [1, 0] x transposes_S1x64_p1_0_S64x1 (ix2 k z) = x (ix2 z k) :=
  transpose_apply _ x _ _ _ fun c => match c with | ⟨0, _⟩ => rfl | ⟨1, _⟩ => rfl

/-! ## The payloads at an index -/

/-- Region 0's payload at row `p` and feature `q` of a block: the row of sums divided by the row's degree against row
    `q` of the left weights, plus the root row against row `q` of the right weights, plus the bias at `q`, clamped at 0. -/
theorem pay0_apply (v0 : Vec Ideal S10000x1 .bf16) (v3 v8 : Vec Ideal S10000x64 .f32) (v10 v12 : Vec Ideal S64x64 .f32)
    (v14 : Vec Ideal S1x64 .f32) (p : Fin 10000) (q : Fin 64) :
    k0_pay1 (F := Ideal) v0 v3 v8 v10 v12 v14 (ix2 p q)
      = max ((∑ k : Fin 64, Ideal.div (v3 (ix2 p k)) (v0 (ix2 p (0 : Fin 1))) * v10 (ix2 q k))
          + (∑ k : Fin 64, v8 (ix2 p k) * v12 (ix2 q k)) + v14 (ix2 (0 : Fin 1) q)) 0 := by
  unfold k0_pay1
  simp only [maximumf_apply, addf_apply, broadcast_apply]
  rw [matmul0_apply, matmul0_apply, broadcastTo_1b_ab_apply]
  show max _ (Ideal.ofBits .f32 0x00000000#32) = _
  rw [Ideal.ofBits_zero_f32]
  simp only [shapeCast_self, truncf_apply, extf_apply, divf_apply, broadcastTo_a1_ab_apply]
  refine congrArg (max · 0) ?_
  refine congrArg₂ (· + ·) (congrArg₂ (· + ·) (Finset.sum_congr rfl fun k _ => ?_) (Finset.sum_congr rfl fun k _ => ?_)) rfl
  · rw [transpose0_apply, truncf_apply]
  · rw [transpose0_apply, truncf_apply]

/-- Region 1's first payload at row `p` of a block: the same with one output feature and no clamp. -/
theorem pay1_apply (v0 : Vec Ideal S8000x1 .bf16) (v3 v8 : Vec Ideal S8000x64 .f32) (v11 v13 : Vec Ideal S1x64 .f32)
    (v15 : Vec Ideal S1x1 .f32) (p : Fin 8000) (z : Fin 1) :
    k1_pay1 (F := Ideal) v0 v3 v8 v11 v13 v15 (ix2 p z)
      = (∑ k : Fin 64, Ideal.div (v3 (ix2 p k)) (v0 (ix2 p (0 : Fin 1))) * v11 (ix2 (0 : Fin 1) k))
          + (∑ k : Fin 64, v8 (ix2 p k) * v13 (ix2 (0 : Fin 1) k)) + v15 (ix2 (0 : Fin 1) (0 : Fin 1)) := by
  obtain rfl : z = 0 := Subsingleton.elim _ _
  unfold k1_pay1
  simp only [addf_apply]
  rw [matmul1_apply, matmul1_apply, broadcastTo_1b_ab_apply]
  simp only [shapeCast_self, truncf_apply, extf_apply, divf_apply, broadcastTo_a1_ab_apply]
  refine congrArg₂ (· + ·) (congrArg₂ (· + ·) (Finset.sum_congr rfl fun k _ => ?_) (Finset.sum_congr rfl fun k _ => ?_)) rfl
  · rw [transpose1_apply, truncf_apply]
  · rw [transpose1_apply, truncf_apply]

/-- Region 1's second payload is the logistic function of the first, entry by entry. -/
theorem pay2_apply (v0 : Vec Ideal S8000x1 .bf16) (v3 v8 : Vec Ideal S8000x64 .f32) (v11 v13 : Vec Ideal S1x64 .f32)
    (v15 : Vec Ideal S1x1 .f32) (j : S8000x1.Idx) :
    k1_pay2 (F := Ideal) v0 v3 v8 v11 v13 v15 j = Ideal.logistic (k1_pay1 (F := Ideal) v0 v3 v8 v11 v13 v15 j) := rfl

/-! ## The arrays a region is entered with, and the layers of them -/

variable (V : (c : Dev nD) → (b : Ref sig .tc) → Buf (Elt Ideal) ((c : Thread nD τ).loc b))

/-- The clamped in-degree column as a vector. -/
def degOf (d : Vec Ideal S100000x1 .bf16) : SN.Idx → EReal := fun i => d (ix2 (i 0) (0 : Fin 1))
/-- A bias row as a vector. -/
def rowOf (b : Vec Ideal S1x64 .f32) : SB.Idx → EReal := fun i => b (ix2 (0 : Fin 1) (i 0))
/-- A bias cell as a vector of one entry. -/
def cellOf1 (b : Vec Ideal S1x1 .f32) : SB1.Idx → EReal := fun _ => b (ix2 (0 : Fin 1) (0 : Fin 1))

/-- The zero offsets of a rank-2 access, however written. -/
theorem zeros2 : (![0, 0] : Fin 2 → Nat) = fun _ => 0 := funext fun a => by fin_cases a <;> rfl

/-! ## Region 0: ten blocks of 10000 rows -/

/-- Region 0's index maps over its ten points: the three row-blocked inputs and the output are at block row `t`, the
    weights and the bias at their one block. -/
theorem idx0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = 0 ∧ win0_5.index t (1 : Fin 2) = 0
  ∧ win0_6.index t (0 : Fin 2) = t.val ∧ win0_6.index t (1 : Fin 2) = 0 :=
  (by decide +kernel : ∀ t : Fin grid0.N, _)

/-- Row `p` of the block of sums at point `t` is row `t · 10000 + p` of the array of sums. -/
theorem iblk0_0_apply (c : Dev nD) (t : Fin cfg0.N) (p : Fin 10000) (k : Fin 64) (r : Fin 100000) (hr : r.val = t.val * 10000 + p.val) :
    (iblk0 V c 0 t : Vec Ideal S10000x64 .f32) (ix2 p k) = (V c main_v15 : Vec Ideal S100000x64 .f32) (ix2 r k) := by
  obtain ⟨e0, e1, -⟩ := idx0 t
  unfold iblk0
  rw [View.read_apply]
  show V c main_v15 _ = V c main_v15 _
  refine congrArg (V c main_v15) (funext fun a => Fin.ext ?_)
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- Row `p` of the degree block at point `t` is row `t · 10000 + p` of the degree column. -/
theorem iblk0_1_apply (c : Dev nD) (t : Fin cfg0.N) (p : Fin 10000) (z : Fin 1) (r : Fin 100000) (hr : r.val = t.val * 10000 + p.val) :
    (iblk0 V c 1 t : Vec Ideal S10000x1 .bf16) (ix2 p z) = (V c main_v11 : Vec Ideal S100000x1 .bf16) (ix2 r z) := by
  obtain ⟨-, -, e0, e1, -⟩ := idx0 t
  unfold iblk0
  rw [View.read_apply]
  show V c main_v11 _ = V c main_v11 _
  refine congrArg (V c main_v11) (funext fun a => Fin.ext ?_)
  match a with
  | ⟨0, _⟩ => show win0_1.index t (0 : Fin 2) * 10000 + 1 * p.val = r.val; rw [e0, hr]; omega
  | ⟨1, _⟩ => show win0_1.index t (1 : Fin 2) * 1 + 1 * z.val = z.val; rw [e1]; omega

/-- Row `p` of the root block at point `t` is row `t · 10000 + p` of the node features. -/
theorem iblk0_2_apply (c : Dev nD) (t : Fin cfg0.N) (p : Fin 10000) (k : Fin 64) (r : Fin 100000) (hr : r.val = t.val * 10000 + p.val) :
    (iblk0 V c 2 t : Vec Ideal S10000x64 .f32) (ix2 p k) = (V c main_arg0 : Vec Ideal S100000x64 .f32) (ix2 r k) := by
  obtain ⟨-, -, -, -, e0, e1, -⟩ := idx0 t
  unfold iblk0
  rw [View.read_apply]
  show V c main_arg0 _ = V c main_arg0 _
  refine congrArg (V c main_arg0) (funext fun a => Fin.ext ?_)
  match a with
  | ⟨0, _⟩ => show win0_2.index t (0 : Fin 2) * 10000 + 1 * p.val = r.val; rw [e0, hr]; omega
  | ⟨1, _⟩ => show win0_2.index t (1 : Fin 2) * 64 + 1 * k.val = k.val; rw [e1]; omega

/-- The left weights' block at every point is the whole array. -/
theorem iblk0_3_apply (c : Dev nD) (t : Fin cfg0.N) (q k : Fin 64) :
    (iblk0 V c 3 t : Vec Ideal S64x64 .f32) (ix2 q k) = (V c main_arg2 : Vec Ideal S64x64 .f32) (ix2 q k) := by
  obtain ⟨-, -, -, -, -, -, e0, e1, -⟩ := idx0 t
  unfold iblk0
  rw [View.read_apply]
  show V c main_arg2 _ = V c main_arg2 _
  refine congrArg (V c main_arg2) (funext fun a => Fin.ext ?_)
  match a with
  | ⟨0, _⟩ => show win0_3.index t (0 : Fin 2) * 64 + 1 * q.val = q.val; rw [e0]; omega
  | ⟨1, _⟩ => show win0_3.index t (1 : Fin 2) * 64 + 1 * k.val = k.val; rw [e1]; omega

/-- The bias row's block at every point is the whole row. -/
theorem iblk0_4_apply (c : Dev nD) (t : Fin cfg0.N) (z : Fin 1) (q : Fin 64) :
    (iblk0 V c 4 t : Vec Ideal S1x64 .f32) (ix2 z q) = (V c main_v16 : Vec Ideal S1x64 .f32) (ix2 z q) := by
  obtain ⟨-, -, -, -, -, -, -, -, e0, e1, -⟩ := idx0 t
  unfold iblk0
  rw [View.read_apply]
  show V c main_v16 _ = V c main_v16 _
  refine congrArg (V c main_v16) (funext fun a => Fin.ext ?_)
  match a with
  | ⟨0, _⟩ => show win0_4.index t (0 : Fin 2) * 1 + 1 * z.val = z.val; rw [e0]; omega
  | ⟨1, _⟩ => show win0_4.index t (1 : Fin 2) * 64 + 1 * q.val = q.val; rw [e1]; omega

/-- The right weights' block at every point is the whole array. -/
theorem iblk0_5_apply (c : Dev nD) (t : Fin cfg0.N) (q k : Fin 64) :
    (iblk0 V c 5 t : Vec Ideal S64x64 .f32) (ix2 q k) = (V c main_arg4 : Vec Ideal S64x64 .f32) (ix2 q k) := by
  obtain ⟨-, -, -, -, -, -, -, -, -, -, e0, e1, -⟩ := idx0 t
  unfold iblk0
  rw [View.read_apply]
  show V c main_arg4 _ = V c main_arg4 _
  refine congrArg (V c main_arg4) (funext fun a => Fin.ext ?_)
  match a with
  | ⟨0, _⟩ => show win0_5.index t (0 : Fin 2) * 64 + 1 * q.val = q.val; rw [e0]; omega
  | ⟨1, _⟩ => show win0_5.index t (1 : Fin 2) * 64 + 1 * k.val = k.val; rw [e1]; omega

/-- The payload of six blocks whose rows are rows of six arrays is layer 0 of the arrays, at the array's row. -/
theorem point0 (deg : Vec Ideal S100000x1 .bf16) (summed x : Vec Ideal S100000x64 .f32) (Wl Wr : Vec Ideal S64x64 .f32)
    (b : Vec Ideal S1x64 .f32) (x1 : Vec Ideal S10000x1 .bf16) (x0 x2 : Vec Ideal S10000x64 .f32)
    (x3 x5 : Vec Ideal S64x64 .f32) (x4 : Vec Ideal S1x64 .f32)
    (y : S10000x64.Idx) (i : S100000x64.Idx) (p : Fin 10000) (q : Fin 64) (r : Fin 100000)
    (hy : y = ix2 p q) (hi : i = ix2 r q)
    (h0 : ∀ k : Fin 64, x0 (ix2 p k) = summed (ix2 r k))
    (h1 : x1 (ix2 p (0 : Fin 1)) = deg (ix2 r (0 : Fin 1)))
    (h2 : ∀ k : Fin 64, x2 (ix2 p k) = x (ix2 r k))
    (h3 : ∀ k : Fin 64, x3 (ix2 q k) = Wl (ix2 q k))
    (h4 : x4 (ix2 (0 : Fin 1) q) = b (ix2 (0 : Fin 1) q))
    (h5 : ∀ k : Fin 64, x5 (ix2 q k) = Wr (ix2 q k)) :
    k0_pay1 (F := Ideal) x1 x0 x2 x3 x5 x4 y = layer0 (degOf deg) summed x Wl Wr (rowOf b) i := by
  subst hy hi
  rw [pay0_apply, layer0_apply]
  unfold conv0At degOf rowOf
  simp only [h0, h1, h2, h3, h4, h5]

/-- Layer 0 of the arrays region 0 is entered with. -/
abbrev G0 (c : Dev nD) : S100000x64.Idx → EReal :=
  layer0 (degOf (V c main_v11)) (V c main_v15) (V c main_arg0) (V c main_arg2) (V c main_arg4) (rowOf (V c main_v16))

/-- What point `t` writes back is block `t` of layer 0 of the arrays the region is entered with. -/
theorem flushed0 (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero zeros2]
  simp only [View.ld_unit_zero (S := S10000x64) zeros2, View.ld_unit_zero (S := S10000x1) zeros2, View.ld_unit_zero (S := S64x64) zeros2, View.ld_unit_zero (S := S1x64) zeros2]
  funext j
  have hN : cfg0.N = 10 := N_0
  have ht : t.val < 10 := hN ▸ t.isLt
  have hj0 : (j 0).val < 10000 := (j 0).isLt
  have hj1 : (j 1).val < 64 := (j 1).isLt
  obtain ⟨-, -, -, -, -, -, -, -, -, -, -, -, e0, e1⟩ := idx0 t
  refine point0 (V c main_v11) (V c main_v15) (V c main_arg0) (V c main_arg2) (V c main_arg4) (V c main_v16)
    (iblk0 V c 1 t) (iblk0 V c 0 t) (iblk0 V c 2 t) (iblk0 V c 3 t) (iblk0 V c 5 t) (iblk0 V c 4 t)
    _ _ ⟨(j 0).val, hj0⟩ ⟨(j 1).val, hj1⟩ ⟨t.val * 10000 + (j 0).val, by omega⟩ ?_ ?_
    (fun k => iblk0_0_apply V c t _ k _ rfl) (iblk0_1_apply V c t _ _ _ rfl) (fun k => iblk0_2_apply V c t _ k _ rfl)
    (fun k => iblk0_3_apply V c t _ k) (iblk0_4_apply V c t _ _) (fun k => iblk0_5_apply V c t _ k)
  · exact funext fun a => Fin.ext (by match a with | ⟨0, _⟩ => rfl | ⟨1, _⟩ => rfl)
  · refine funext fun a => Fin.ext ?_
    match a with
    | ⟨0, _⟩ => show win0_6.index t (0 : Fin 2) * 10000 + 1 * (j 0).val = t.val * 10000 + (j 0).val; rw [e0]; omega
    | ⟨1, _⟩ => show win0_6.index t (1 : Fin 2) * 64 + 1 * (j 1).val = (j 1).val; rw [e1]; omega

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v17).slice (win0_6.rect t)).set ↔ _
  rw [View.set_slice_whole, Rect.mem_set_unit]
  exact Iff.rfl

/-- Row `r` of the output is written at point `r / 10000`: the ten blocks tile the array. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, e0, e1⟩ := idx0 t
  refine ⟨t, flush0_6 t, ?_⟩
  rw [mem_blk0]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 64 ≤ (i 1).val ∧ (i 1).val < win0_6.index t (1 : Fin 2) * 64 + 64
    rw [e1]; omega

/-- After region 0's run its output array holds layer 0 of the arrays the region was entered with. -/
theorem final0 (c : Dev nD) : (dat0 (F := Ideal) V c).arrAt 6 cfg0.N
    = layer0 (degOf (V c main_v11)) (V c main_v15) (V c main_arg0) (V c main_arg2) (V c main_arg4) (rowOf (V c main_v16)) :=
  (dat0 (F := Ideal) V c).arrAt_eq_of_cover 6 (G0 V c) (fun t _ => flushed0 V c t) cover0

/-! ## Region 1: thirteen blocks of 8000 rows over 100000 rows, the last one cut at row 100000 -/

/-- Region 1's index maps over its thirteen points: the row-blocked windows are at block row `t`, -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
/-- the weights and the bias at their one block. -/
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)

/-- How many rows and columns of a row-blocked window's block lie inside its array: the block at point `t` ends at row
    `(t + 1) · 8000` or at the array's last row, whichever comes first; every column is inside. -/
theorem xs1_0 : ∀ t : Fin cfg1.N, t.val * 8000 + win1_0.xsize (grid1.coords t) (0 : Fin 2) = min ((t.val + 1) * 8000) 100000
    ∧ win1_0.xsize (grid1.coords t) (1 : Fin 2) = 64 :=
  (by decide +kernel : ∀ t : Fin grid1.N, _)
theorem xs1_1 : ∀ t : Fin cfg1.N, t.val * 8000 + win1_1.xsize (grid1.coords t) (0 : Fin 2) = min ((t.val + 1) * 8000) 100000
    ∧ win1_1.xsize (grid1.coords t) (1 : Fin 2) = 1 :=
  (by decide +kernel : ∀ t : Fin grid1.N, _)
theorem xs1_2 : ∀ t : Fin cfg1.N, t.val * 8000 + win1_2.xsize (grid1.coords t) (0 : Fin 2) = min ((t.val + 1) * 8000) 100000
    ∧ win1_2.xsize (grid1.coords t) (1 : Fin 2) = 64 :=
  (by decide +kernel : ∀ t : Fin grid1.N, _)
theorem xs1_6 : ∀ t : Fin cfg1.N, t.val * 8000 + win1_6.xsize (grid1.coords t) (0 : Fin 2) = min ((t.val + 1) * 8000) 100000
    ∧ win1_6.xsize (grid1.coords t) (1 : Fin 2) = 1 :=
  (by decide +kernel : ∀ t : Fin grid1.N, _)
theorem xs1_7 : ∀ t : Fin cfg1.N, t.val * 8000 + win1_7.xsize (grid1.coords t) (0 : Fin 2) = min ((t.val + 1) * 8000) 100000
    ∧ win1_7.xsize (grid1.coords t) (1 : Fin 2) = 1 :=
  (by decide +kernel : ∀ t : Fin grid1.N, _)

/-- A block filled out past the array's end reads, at an entry inside the array, the part it was filled with. -/
theorem fill_of_moved {G : Pipeline.Grid} (w : Window sig G) {α : Type} (i : G.Coords) (d : w.block.Idx → α) (g : (w.xblock i).Idx → α)
    (j : w.block.Idx) (h : w.moved i j = true) :
    w.fill i d g j = g fun a => ⟨(j a).val, (w.moved_iff i j).mp h a⟩ := by
  unfold Window.fill; rw [dif_pos h]

/-- Row `p` of the block of sums at point `t`, when row `t · 8000 + p` is a row of the array, is that row. -/
theorem full1_0_apply (c : Dev nD) (t : Fin cfg1.N) (p : Fin 8000) (k : Fin 64) (r : Fin 100000) (hr : r.val = t.val * 8000 + p.val) :
    full1_0 V c t (ix2 p k) = (V c main_v21 : Vec Ideal S100000x64 .f32) (ix2 r k) := by
  obtain ⟨i0, i1⟩ := idx1_0 t
  obtain ⟨s0, s1⟩ := xs1_0 t
  have hr' : r.val < 100000 := r.isLt
  have hc : k.val < 64 := k.isLt
  have hm : win1_0.moved (grid1.coords t) (ix2 p k) = true := (win1_0.moved_iff _ _).mpr fun a => by
    match a with
    | ⟨0, _⟩ => show p.val < win1_0.xsize (grid1.coords t) (0 : Fin 2); omega
    | ⟨1, _⟩ => show k.val < win1_0.xsize (grid1.coords t) (1 : Fin 2); omega
  unfold full1_0
  rw [fill_of_moved _ _ _ _ _ hm]
  unfold iblk1
  rw [View.read_apply]
  show V c main_v21 _ = V c main_v21 _
  refine congrArg (V c main_v21) (funext fun a => Fin.ext ?_)
  match a with
  | ⟨0, _⟩ => show win1_0.index t (0 : Fin 2) * 8000 + 1 * p.val = r.val; rw [i0, hr]; omega
  | ⟨1, _⟩ => show win1_0.index t (1 : Fin 2) * 64 + 1 * k.val = k.val; rw [i1]; omega

/-- Row `p` of the degree block at point `t`, when row `t · 8000 + p` is a row of the column, is that row. -/
theorem full1_1_apply (c : Dev nD) (t : Fin cfg1.N) (p : Fin 8000) (z : Fin 1) (r : Fin 100000) (hr : r.val = t.val * 8000 + p.val) :
    full1_1 V c t (ix2 p z) = (V c main_v11 : Vec Ideal S100000x1 .bf16) (ix2 r z) := by
  obtain ⟨i0, i1⟩ := idx1_1 t
  obtain ⟨s0, s1⟩ := xs1_1 t
  have hr' : r.val < 100000 := r.isLt
  have hc : z.val < 1 := z.isLt
  have hm : win1_1.moved (grid1.coords t) (ix2 p z) = true := (win1_1.moved_iff _ _).mpr fun a => by
    match a with
    | ⟨0, _⟩ => show p.val < win1_1.xsize (grid1.coords t) (0 : Fin 2); omega
    | ⟨1, _⟩ => show z.val < win1_1.xsize (grid1.coords t) (1 : Fin 2); omega
  unfold full1_1
  rw [fill_of_moved _ _ _ _ _ hm]
  unfold iblk1
  rw [View.read_apply]
  show V c main_v11 _ = V c main_v11 _
  refine congrArg (V c main_v11) (funext fun a => Fin.ext ?_)
  match a with
  | ⟨0, _⟩ => show win1_1.index t (0 : Fin 2) * 8000 + 1 * p.val = r.val; rw [i0, hr]; omega
  | ⟨1, _⟩ => show win1_1.index t (1 : Fin 2) * 1 + 1 * z.val = z.val; rw [i1]; omega

/-- Row `p` of the root block at point `t`, when row `t · 8000 + p` is a row of layer 0's result, is that row. -/
theorem full1_2_apply (c : Dev nD) (t : Fin cfg1.N) (p : Fin 8000) (k : Fin 64) (r : Fin 100000) (hr : r.val = t.val * 8000 + p.val) :
    full1_2 V c t (ix2 p k) = (V c main_v17 : Vec Ideal S100000x64 .f32) (ix2 r k) := by
  obtain ⟨i0, i1⟩ := idx1_2 t
  obtain ⟨s0, s1⟩ := xs1_2 t
  have hr' : r.val < 100000 := r.isLt
  have hc : k.val < 64 := k.isLt
  have hm : win1_2.moved (grid1.coords t) (ix2 p k) = true := (win1_2.moved_iff _ _).mpr fun a => by
    match a with
    | ⟨0, _⟩ => show p.val < win1_2.xsize (grid1.coords t) (0 : Fin 2); omega
    | ⟨1, _⟩ => show k.val < win1_2.xsize (grid1.coords t) (1 : Fin 2); omega
  unfold full1_2
  rw [fill_of_moved _ _ _ _ _ hm]
  unfold iblk1
  rw [View.read_apply]
  show V c main_v17 _ = V c main_v17 _
  refine congrArg (V c main_v17) (funext fun a => Fin.ext ?_)
  match a with
  | ⟨0, _⟩ => show win1_2.index t (0 : Fin 2) * 8000 + 1 * p.val = r.val; rw [i0, hr]; omega
  | ⟨1, _⟩ => show win1_2.index t (1 : Fin 2) * 64 + 1 * k.val = k.val; rw [i1]; omega

/-- The left weights' block at every point is the whole row. -/
theorem iblk1_3_apply (c : Dev nD) (t : Fin cfg1.N) (z : Fin 1) (k : Fin 64) :
    (iblk1 V c 3 t : Vec Ideal S1x64 .f32) (ix2 z k) = (V c main_arg5 : Vec Ideal S1x64 .f32) (ix2 z k) := by
  obtain ⟨i0, i1⟩ := idx1_3 t
  unfold iblk1
  rw [View.read_apply]
  show V c main_arg5 _ = V c main_arg5 _
  refine congrArg (V c main_arg5) (funext fun a => Fin.ext ?_)
  match a with
  | ⟨0, _⟩ => show win1_3.index t (0 : Fin 2) * 1 + 1 * z.val = z.val; rw [i0]; omega
  | ⟨1, _⟩ => show win1_3.index t (1 : Fin 2) * 64 + 1 * k.val = k.val; rw [i1]; omega

/-- The bias cell's block at every point is the cell. -/
theorem iblk1_4_apply (c : Dev nD) (t : Fin cfg1.N) (z : Fin 1) (k : Fin 1) :
    (iblk1 V c 4 t : Vec Ideal S1x1 .f32) (ix2 z k) = (V c main_v22 : Vec Ideal S1x1 .f32) (ix2 z k) := by
  obtain ⟨i0, i1⟩ := idx1_4 t
  unfold iblk1
  rw [View.read_apply]
  show V c main_v22 _ = V c main_v22 _
  refine congrArg (V c main_v22) (funext fun a => Fin.ext ?_)
  match a with
  | ⟨0, _⟩ => show win1_4.index t (0 : Fin 2) * 1 + 1 * z.val = z.val; rw [i0]; omega
  | ⟨1, _⟩ => show win1_4.index t (1 : Fin 2) * 1 + 1 * k.val = k.val; rw [i1]; omega

/-- The right weights' block at every point is the whole row. -/
theorem iblk1_5_apply (c : Dev nD) (t : Fin cfg1.N) (z : Fin 1) (k : Fin 64) :
    (iblk1 V c 5 t : Vec Ideal S1x64 .f32) (ix2 z k) = (V c main_arg7 : Vec Ideal S1x64 .f32) (ix2 z k) := by
  obtain ⟨i0, i1⟩ := idx1_5 t
  unfold iblk1
  rw [View.read_apply]
  show V c main_arg7 _ = V c main_arg7 _
  refine congrArg (V c main_arg7) (funext fun a => Fin.ext ?_)
  match a with
  | ⟨0, _⟩ => show win1_5.index t (0 : Fin 2) * 1 + 1 * z.val = z.val; rw [i0]; omega
  | ⟨1, _⟩ => show win1_5.index t (1 : Fin 2) * 64 + 1 * k.val = k.val; rw [i1]; omega

/-- The first payload of six blocks whose rows are rows of six arrays is layer 1 of the arrays, at the array's row. -/
theorem point1 (deg : Vec Ideal S100000x1 .bf16) (summed h : Vec Ideal S100000x64 .f32) (Wl Wr : Vec Ideal S1x64 .f32)
    (b : Vec Ideal S1x1 .f32) (x1 : Vec Ideal S8000x1 .bf16) (x0 x2 : Vec Ideal S8000x64 .f32)
    (x3 x5 : Vec Ideal S1x64 .f32) (x4 : Vec Ideal S1x1 .f32)
    (y : S8000x1.Idx) (i : S100000x1.Idx) (p : Fin 8000) (z : Fin 1) (r : Fin 100000)
    (hy : y = ix2 p z) (hi : i = ix2 r z)
    (h0 : ∀ k : Fin 64, x0 (ix2 p k) = summed (ix2 r k))
    (h1 : x1 (ix2 p (0 : Fin 1)) = deg (ix2 r (0 : Fin 1)))
    (h2 : ∀ k : Fin 64, x2 (ix2 p k) = h (ix2 r k))
    (h3 : ∀ k : Fin 64, x3 (ix2 (0 : Fin 1) k) = Wl (ix2 (0 : Fin 1) k))
    (h4 : x4 (ix2 (0 : Fin 1) (0 : Fin 1)) = b (ix2 (0 : Fin 1) (0 : Fin 1)))
    (h5 : ∀ k : Fin 64, x5 (ix2 (0 : Fin 1) k) = Wr (ix2 (0 : Fin 1) k)) :
    k1_pay1 (F := Ideal) x1 x0 x2 x3 x5 x4 y = layer1 (degOf deg) summed h Wl Wr (cellOf1 b) i := by
  subst hy hi
  rw [pay1_apply, layer1_apply]
  unfold conv1At degOf cellOf1
  simp only [h0, h1, h2, h3, h4, h5]

/-- The second payload of the same blocks is the logistic function of layer 1 of the arrays, at the array's row. -/
theorem point2 (deg : Vec Ideal S100000x1 .bf16) (summed h : Vec Ideal S100000x64 .f32) (Wl Wr : Vec Ideal S1x64 .f32)
    (b : Vec Ideal S1x1 .f32) (x1 : Vec Ideal S8000x1 .bf16) (x0 x2 : Vec Ideal S8000x64 .f32)
    (x3 x5 : Vec Ideal S1x64 .f32) (x4 : Vec Ideal S1x1 .f32)
    (y : S8000x1.Idx) (i : S100000x1.Idx) (p : Fin 8000) (z : Fin 1) (r : Fin 100000)
    (hy : y = ix2 p z) (hi : i = ix2 r z)
    (h0 : ∀ k : Fin 64, x0 (ix2 p k) = summed (ix2 r k))
    (h1 : x1 (ix2 p (0 : Fin 1)) = deg (ix2 r (0 : Fin 1)))
    (h2 : ∀ k : Fin 64, x2 (ix2 p k) = h (ix2 r k))
    (h3 : ∀ k : Fin 64, x3 (ix2 (0 : Fin 1) k) = Wl (ix2 (0 : Fin 1) k))
    (h4 : x4 (ix2 (0 : Fin 1) (0 : Fin 1)) = b (ix2 (0 : Fin 1) (0 : Fin 1)))
    (h5 : ∀ k : Fin 64, x5 (ix2 (0 : Fin 1) k) = Wr (ix2 (0 : Fin 1) k)) :
    k1_pay2 (F := Ideal) x1 x0 x2 x3 x5 x4 y = sigm (layer1 (degOf deg) summed h Wl Wr (cellOf1 b)) i := by
  rw [pay2_apply]
  exact congrArg Ideal.logistic (point1 deg summed h Wl Wr b x1 x0 x2 x3 x5 x4 y i p z r hy hi h0 h1 h2 h3 h4 h5)

/-- Layer 1 of the arrays region 1 is entered with, and its logistic function. -/
abbrev G1 (c : Dev nD) : S100000x1.Idx → EReal :=
  layer1 (degOf (V c main_v11)) (V c main_v21) (V c main_v17) (V c main_arg5) (V c main_arg7) (cellOf1 (V c main_v22))
abbrev G2 (c : Dev nD) : S100000x1.Idx → EReal := sigm (G1 V c)

/-- What point `t` writes back to the first output — the rows of its block that lie inside the array — is block `t` of layer 1 of the arrays the region is entered with. -/
theorem flushed1_6 (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  funext j
  have hN : cfg1.N = 13 := N_1
  have ht : t.val < 13 := hN ▸ t.isLt
  obtain ⟨s0, s1⟩ := xs1_6 t
  obtain ⟨e0, e1⟩ := idx1_6 t
  have hj0 : (j 0).val < win1_6.xsize (grid1.coords t) (0 : Fin 2) := (j 0).isLt
  have hj1 : (j 1).val < win1_6.xsize (grid1.coords t) (1 : Fin 2) := (j 1).isLt
  refine point1 (V c main_v11) (V c main_v21) (V c main_v17) (V c main_arg5) (V c main_arg7) (V c main_v22)
    (full1_1 V c t) (full1_0 V c t) (full1_2 V c t) (iblk1 V c 3 t) (iblk1 V c 5 t) (iblk1 V c 4 t)
    _ _ ⟨(j 0).val, by omega⟩ ⟨(j 1).val, by omega⟩ ⟨t.val * 8000 + (j 0).val, by omega⟩ ?_ ?_
    (fun k => full1_0_apply V c t _ k _ rfl) (full1_1_apply V c t _ _ _ rfl) (fun k => full1_2_apply V c t _ k _ rfl)
    (fun k => iblk1_3_apply V c t _ k) (iblk1_4_apply V c t _ _) (fun k => iblk1_5_apply V c t _ k)
  · exact funext fun a => Fin.ext (by match a with | ⟨0, _⟩ => rfl | ⟨1, _⟩ => rfl)
  · refine funext fun a => Fin.ext ?_
    match a with
    | ⟨0, _⟩ => show win1_6.index t (0 : Fin 2) * 8000 + 1 * (j 0).val = t.val * 8000 + (j 0).val; rw [e0]; omega
    | ⟨1, _⟩ => show win1_6.index t (1 : Fin 2) * 1 + 1 * (j 1).val = (j 1).val; rw [e1]; omega

/-- What point `t` writes back to the second output is block `t` of the logistic function of layer 1. -/
theorem flushed1_7 (c : Dev nD) (t : Fin cfg1.N) :
    (dat1 (F := Ideal) V c).flushed 7 t = ((cfg1.win 7).blk t).view.read (Elt Ideal) (G2 V c) := by
  show (cfg1.win 7).cut (grid1.coords t) ((dat1 (F := Ideal) V c).after 7 t) = _
  rw [after1_7]
  funext j
  have hN : cfg1.N = 13 := N_1
  have ht : t.val < 13 := hN ▸ t.isLt
  obtain ⟨s0, s1⟩ := xs1_7 t
  obtain ⟨e0, e1⟩ := idx1_7 t
  have hj0 : (j 0).val < win1_7.xsize (grid1.coords t) (0 : Fin 2) := (j 0).isLt
  have hj1 : (j 1).val < win1_7.xsize (grid1.coords t) (1 : Fin 2) := (j 1).isLt
  refine point2 (V c main_v11) (V c main_v21) (V c main_v17) (V c main_arg5) (V c main_arg7) (V c main_v22)
    (full1_1 V c t) (full1_0 V c t) (full1_2 V c t) (iblk1 V c 3 t) (iblk1 V c 5 t) (iblk1 V c 4 t)
    _ _ ⟨(j 0).val, by omega⟩ ⟨(j 1).val, by omega⟩ ⟨t.val * 8000 + (j 0).val, by omega⟩ ?_ ?_
    (fun k => full1_0_apply V c t _ k _ rfl) (full1_1_apply V c t _ _ _ rfl) (fun k => full1_2_apply V c t _ k _ rfl)
    (fun k => iblk1_3_apply V c t _ k) (iblk1_4_apply V c t _ _) (fun k => iblk1_5_apply V c t _ k)
  · exact funext fun a => Fin.ext (by match a with | ⟨0, _⟩ => rfl | ⟨1, _⟩ => rfl)
  · refine funext fun a => Fin.ext ?_
    match a with
    | ⟨0, _⟩ => show win1_7.index t (0 : Fin 2) * 8000 + 1 * (j 0).val = t.val * 8000 + (j 0).val; rw [e0]; omega
    | ⟨1, _⟩ => show win1_7.index t (1 : Fin 2) * 1 + 1 * (j 1).val = (j 1).val; rw [e1]; omega

/-- An index of the array is in point `t`'s block iff each coordinate is in the range of the block's part inside the array. -/
theorem mem_blk1_6 (t : Fin cfg1.N) (i : S100000x1.Idx) :
    i ∈ ((cfg1.win 6).blk t).view.set ↔ ∀ a : Fin 2, win1_6.index t a * S8000x1.size a ≤ (i a).val
      ∧ (i a).val < win1_6.index t a * S8000x1.size a + win1_6.xsize (grid1.coords t) a := by
  show i ∈ ((View.whole main_v23_0).slice (win1_6.rect t)).set ↔ _
  rw [View.set_slice_whole, Rect.mem_set_unit]
  exact Iff.rfl

/-- Row `r` is written at point `r / 8000`: twelve whole blocks and the first 4000 rows of the thirteenth tile the array. -/
theorem cover1_6 (i : S100000x1.Idx) : ∃ t : Fin cfg1.N, (cfg1.win 6).flush t = true ∧ i ∈ ((cfg1.win 6).blk t).view.set := by
  have hi0 : (i 0).val < 100000 := (i 0).isLt
  have hi1 : (i 1).val < 1 := (i 1).isLt
  have hN : cfg1.N = 13 := N_1
  obtain ⟨t, ht⟩ : ∃ t : Fin cfg1.N, t.val = (i 0).val / 8000 := ⟨⟨(i 0).val / 8000, by rw [hN]; omega⟩, rfl⟩
  obtain ⟨s0, s1⟩ := xs1_6 t
  obtain ⟨e0, e1⟩ := idx1_6 t
  refine ⟨t, flush1_6 t, ?_⟩
  rw [mem_blk1_6]
  intro a
  match a with
  | ⟨0, _⟩ =>
    show win1_6.index t (0 : Fin 2) * 8000 ≤ (i 0).val ∧ (i 0).val < win1_6.index t (0 : Fin 2) * 8000 + win1_6.xsize (grid1.coords t) (0 : Fin 2)
    rw [e0]; omega
  | ⟨1, _⟩ =>
    show win1_6.index t (1 : Fin 2) * 1 ≤ (i 1).val ∧ (i 1).val < win1_6.index t (1 : Fin 2) * 1 + win1_6.xsize (grid1.coords t) (1 : Fin 2)
    rw [e1, s1]; omega

/-- An index of the array is in point `t`'s block iff each coordinate is in the range of the block's part inside the array. -/
theorem mem_blk1_7 (t : Fin cfg1.N) (i : S100000x1.Idx) :
    i ∈ ((cfg1.win 7).blk t).view.set ↔ ∀ a : Fin 2, win1_7.index t a * S8000x1.size a ≤ (i a).val
      ∧ (i a).val < win1_7.index t a * S8000x1.size a + win1_7.xsize (grid1.coords t) a := by
  show i ∈ ((View.whole main_v23_1).slice (win1_7.rect t)).set ↔ _
  rw [View.set_slice_whole, Rect.mem_set_unit]
  exact Iff.rfl

/-- Row `r` is written at point `r / 8000`: twelve whole blocks and the first 4000 rows of the thirteenth tile the array. -/
theorem cover1_7 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 13 := N_1
  obtain ⟨t, ht⟩ : ∃ t : Fin cfg1.N, t.val = (i 0).val / 8000 := ⟨⟨(i 0).val / 8000, by rw [hN]; omega⟩, rfl⟩
  obtain ⟨s0, s1⟩ := xs1_7 t
  obtain ⟨e0, e1⟩ := idx1_7 t
  refine ⟨t, flush1_7 t, ?_⟩
  rw [mem_blk1_7]
  intro a
  match a with
  | ⟨0, _⟩ =>
    show win1_7.index t (0 : Fin 2) * 8000 ≤ (i 0).val ∧ (i 0).val < win1_7.index t (0 : Fin 2) * 8000 + win1_7.xsize (grid1.coords t) (0 : Fin 2)
    rw [e0]; omega
  | ⟨1, _⟩ =>
    show win1_7.index t (1 : Fin 2) * 1 ≤ (i 1).val ∧ (i 1).val < win1_7.index t (1 : Fin 2) * 1 + win1_7.xsize (grid1.coords t) (1 : Fin 2)
    rw [e1, s1]; omega

/-- After region 1's run its first output array holds layer 1 of the arrays the region was entered with, -/
theorem final1_6 (c : Dev nD) : (dat1 (F := Ideal) V c).arrAt 6 cfg1.N
    = layer1 (degOf (V c main_v11)) (V c main_v21) (V c main_v17) (V c main_arg5) (V c main_arg7) (cellOf1 (V c main_v22)) :=
  (dat1 (F := Ideal) V c).arrAt_eq_of_cover 6 (G1 V c) (fun t _ => flushed1_6 V c t) cover1_6

/-- and its second the logistic function of that, entry by entry. -/
theorem final1_7 (c : Dev nD) : (dat1 (F := Ideal) V c).arrAt 7 cfg1.N
    = sigm (layer1 (degOf (V c main_v11)) (V c main_v21) (V c main_v17) (V c main_arg5) (V c main_arg7) (cellOf1 (V c main_v22))) :=
  (dat1 (F := Ideal) V c).arrAt_eq_of_cover 7 (G2 V c) (fun t _ => flushed1_7 V c t) cover1_7

end Cert.KernelIdeal.Sage

end
-- ==== Proof.EdgeOps.lean ====
import proofs.«414274_j35485019799946_3_alg».proof.Proof.Gen.KernelIdeal.Launch

/-!
The edge operations of the program, as functions of the edge list `ei : i32[2, 1000000]` (row 0 the source node of
every edge, row 1 its destination node), spelt as @main's host operations spell them:
`srcK` / `dstK` the two rows; `idxK` the source column with a negative entry shifted up by the node count;
`gthK ei h` the feature rows of `h` gathered at the sources; `takeK ei h` the same with a row whose index is out of
range replaced by the not-a-number word (the kernel's take in fill mode); `saK ei u` the rows of `u` summed into their edges'
destination nodes; `degK ei` the in-degree clamped below at one, and `degcK ei` the same as a column at bf16.
-/

noncomputable section

namespace Cert.KernelIdeal.Sage

open Cert.KernelIdeal Cert.KernelIdeal.Gen
open Idealize.ShloMosaic Idealize.ShloMosaic.TcCoe

variable {F : FTy → Type} [FloatOps F]

def srcK (ei : IVec S2x1000000 32) : IVec S1000000 32 :=
  shapeCast _ (extractStridedSlice S1x1000000 ![0, 0] ei slices_S2x1000000_S1x1000000_0_0) shapeCasts_S1x1000000_S1000000

def dstK (ei : IVec S2x1000000 32) : IVec S1000000 32 :=
  shapeCast _ (extractStridedSlice S1x1000000 ![1, 0] ei slices_S2x1000000_S1x1000000_1_0) shapeCasts_S1x1000000_S1000000

def dstColK (ei : IVec S2x1000000 32) : IVec S1000000x1 32 :=
  broadcastInDim S1000000x1 ![0] bcast_S1000000_S1000000x1_0 (dstK ei)

/-- The source index after the shift of negative entries: `src < 0 ? src + 100000 : src`. -/
def normK (ei : IVec S2x1000000 32) : IVec S1000000 32 :=
  select (cmpi .slt (srcK ei) (broadcastInDim S1000000 ![] bcast_S_S1000000 (constantI S_ 32 0#32)))
    (addi (srcK ei) (broadcastInDim S1000000 ![] bcast_S_S1000000 (constantI S_ 32 100000#32))) (srcK ei)

def idxK (ei : IVec S2x1000000 32) : IVec S1000000x1 32 :=
  broadcastInDim S1000000x1 ![0] bcast_S1000000_S1000000x1_0 (normK ei)

/-- Per edge: is the shifted source index within `0 … 99999`? -/
def okK (ei : IVec S2x1000000 32) : IVec S1000000 1 :=
  (fun x v => Host.reduce IntOp.andi x v reducesTo_S1000000x1_S1000000_d1 h_S_)
    (andi (cmpi .sge (idxK ei) (broadcastInDim S1000000x1 ![] bcast_S_S1000000x1 (constantI S_ 32 0#32)))
      (cmpi .sle (idxK ei) (broadcastInDim S1000000x1 ![0, 1] bcast_S1x1_S1000000x1_0_1
        (broadcastInDim S1x1 ![1] bcast_S1_S1x1_1 (constantI S1 32 99999#32)))))
    (constantI S_ 1 1#1)

def maskK (ei : IVec S2x1000000 32) : IVec S1000000x64 1 :=
  broadcastInDim S1000000x64 ![0] bcast_S1000000_S1000000x64_0 (okK ei)

def gthK (ei : IVec S2x1000000 32) (h : FVec F S100000x64 .f32) : FVec F S1000000x64 .f32 :=
  Host.gather gather_S100000x64_S1000000x1_S1000000x64_1_0_n_n_0_1_164 h (idxK ei)

def takeK (ei : IVec S2x1000000 32) (h : FVec F S100000x64 .f32) : FVec F S1000000x64 .f32 :=
  select (maskK ei) (gthK ei h) (broadcastInDim S1000000x64 ![] bcast_S_S1000000x64 (constant S_ .f32 0x7FC00000#32))

def saK (ei : IVec S2x1000000 32) (u : FVec F S1000000x64 .f32) : FVec F S100000x64 .f32 :=
  Host.scatterAdd scatter_S100000x64_S1000000x1_S1000000x64_1_0_0_1
    (broadcastInDim S100000x64 ![] bcast_S_S100000x64 (constant S_ .f32 0x00000000#32)) (dstColK ei) u

def degK (ei : IVec S2x1000000 32) : FVec F S100000 .f32 :=
  maximumf
    (Host.scatterAdd scatter_S100000_S1000000x1_S1000000_n_0_0_1
      (broadcastInDim S100000 ![] bcast_S_S100000 (constant S_ .f32 0x00000000#32)) (dstColK ei)
      (broadcastInDim S1000000 ![] bcast_S_S1000000 (constant S_ .f32 0x3F800000#32)))
    (broadcastInDim S100000 ![] bcast_S_S100000 (constant S_ .f32 0x3F800000#32))

def degcK (ei : IVec S2x1000000 32) : FVec F S100000x1 .bf16 :=
  truncf .bf16 (shapeCast _ (degK (F := F) ei) shapeCasts_S100000_S100000x1) bitsLt_bf16_f32

end Cert.KernelIdeal.Sage

end
-- ==== Proof.HostValue.lean ====
import proofs.«414274_j35485019799946_3_alg».proof.Proof.Data
import proofs.«414274_j35485019799946_3_alg».proof.Proof.EdgeOps
import proofs.«414274_j35485019799946_3_alg».proof.Proof.Gen.KernelIdeal.Regions
import Idealize.ShloMosaic.Lib.StableHlo.Run
import Idealize.ShloMosaic.PureOps.Ideal
import Idealize.ShloMosaic.Lib.ValueIdx
import Idealize.ShloMosaic.Lib.ValueLayout
import Idealize.ShloMosaic.Lib.Pipeline.Value

/-!
What the host stretches of the program leave in the arrays the two pipelines are entered with, as functions of the
launch contents: the summed neighbour rows `saK ei (takeK ei ·)`, the clamped in-degree column `degcK ei`, the bias
rows as casts of the bias vectors, and the arguments as launched. Each stretch is read over the valuation the stretch
before it left. The statements hold at every float family; the three index readings at the end are at the ideal
family, where the narrowing to bf16 is the identity.
-/

noncomputable section

namespace Cert.KernelIdeal.Sage

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Idealize.ShloMosaic.StableHlo
open Idealize.ShloMosaic.ValueIdx

variable {F : FTy → Type} [FloatOps F]
variable (m : (ℓ : Loc nD τ sig) → Buf (Elt F) ℓ) (outs : Gen.Outs (F := F))

/-- the edge list on core c -/
abbrev eiOf (c : Dev nD) : IVec S2x1000000 32 := m ((c : Thread nD τ).loc main_arg1)

/-- A typed reference's two transports compose to the identity. -/
theorem ofBuf_toBuf {T : BufTy} {Val : EltTy → Type} (x : StableHlo.TRef sig T) (v : T.Contents Val) :
    x.ofBuf (x.toBuf v) = v := by
  unfold StableHlo.TRef.ofBuf StableHlo.TRef.toBuf
  simp only [cast_cast, cast_eq]

/-! ## The first stretch: the two rows of the edge list and the clamped in-degree -/

/-- Row 0 of the edge list, as a vector. -/
theorem V1_v1 (c : Dev nD) : Gen.V1 m c main_v1 = srcK (eiOf m c) := by
  show StableHlo.after hostOps0 (Gen.V0 m c) (Proc.devRef .tc main_v1) = _
  after_results
  rfl

/-- Row 1 of the edge list, as a vector. -/
theorem V1_v3 (c : Dev nD) : Gen.V1 m c main_v3 = dstK (eiOf m c) := by
  show StableHlo.after hostOps0 (Gen.V0 m c) (Proc.devRef .tc main_v3) = _
  after_results
  rfl

/-- The in-degree by scatter-add of ones into the destination nodes, clamped below at one, as a bf16 column. -/
theorem V1_v11 (c : Dev nD) : Gen.V1 m c main_v11 = degcK (F := F) (eiOf m c) := by
  show StableHlo.after hostOps0 (Gen.V0 m c) (Proc.devRef .tc main_v11) = _
  after_results
  rfl

/-! ## The gather of layer 0 and what region 0 is entered with -/

set_option maxHeartbeats 1000000 in
/-- The feature rows of the input gathered at the edges' sources (a row whose index is out of range is the not-a-number word): depends on row 0 of the edge list and on the input features. -/
theorem V2_v12 (c : Dev nD) :
    Gen.V2 m c main_v12 = takeK (F := F) (eiOf m c) (m ((c : Thread nD τ).loc main_arg0)) := by
  have h1 : Gen.V1 m c main_v1 = srcK (eiOf m c) := V1_v1 m c
  have h0 : Gen.V1 m c main_arg0 = m ((c : Thread nD τ).loc main_arg0) := Gen.V1_of m c main_arg0 (by decide)
  show StableHlo.after hostOps0_1 (Gen.V1 m c) (Proc.devRef .tc main_v12) = _
  generalize Gen.V1 m c = W at h1 h0 ⊢
  after_results_simp
  simp only [ofBuf_toBuf]
  rw [h1, h0]
  have e1 : ∀ v : IVec S1000000 32,
      ((StableHlo.TRef.of main_v1 : StableHlo.TRef sig ⟨S1000000, .i32⟩).ofBuf (Val := Elt F) v) = v := fun _ => rfl
  have e0 : ∀ v : FVec F S100000x64 .f32,
      ((StableHlo.TRef.of main_arg0 : StableHlo.TRef sig ⟨S100000x64, .f32⟩).ofBuf (Val := Elt F) v) = v := fun _ => rfl
  have eo : ∀ v : FVec F S1000000x64 .f32,
      ((StableHlo.TRef.of main_v12 : StableHlo.TRef sig ⟨S1000000x64, .f32⟩).toBuf (Val := Elt F) v) = v := fun _ => rfl
  rw [e1, e0]
  refine (eo _).trans ?_
  rfl

/-- Window 0 of region 0: the gathered rows summed into their edges' destination nodes. -/
theorem V3_v15 (c : Dev nD) :
    Gen.V3 m c main_v15 = saK (F := F) (eiOf m c) (takeK (eiOf m c) (m ((c : Thread nD τ).loc main_arg0))) := by
  have h3 : Gen.V2 m c main_v3 = dstK (eiOf m c) := (Gen.V2_of m c main_v3 (by decide)).trans (V1_v3 m c)
  have hu := V2_v12 m c
  show StableHlo.after hostOps0_2 (Gen.V2 m c) (Proc.devRef .tc main_v15) = _
  generalize Gen.V2 m c = W at h3 hu ⊢
  after_results
  rw [h3, hu]
  rfl

/-- Window 1 of region 0: the clamped in-degree column, untouched since the first stretch. -/
theorem V3_v11 (c : Dev nD) : Gen.V3 m c main_v11 = degcK (F := F) (eiOf m c) :=
  (Gen.V3_of m c main_v11 (by decide)).trans <| (Gen.V2_of m c main_v11 (by decide)).trans (V1_v11 m c)

/-- Window 4 of region 0: the bias vector of layer 0 as a row. -/
theorem V3_v16 (c : Dev nD) :
    Gen.V3 m c main_v16 = shapeCast _ (m ((c : Thread nD τ).loc main_arg3)) shapeCasts_S64_S1x64 := by
  have ha : Gen.V2 m c main_arg3 = m ((c : Thread nD τ).loc main_arg3) := (Gen.V2_of m c main_arg3 (by decide)).trans <| (Gen.V1_of m c main_arg3 (by decide)).trans rfl
  show StableHlo.after hostOps0_2 (Gen.V2 m c) (Proc.devRef .tc main_v16) = _
  generalize Gen.V2 m c = W at ha ⊢
  after_results
  rw [ha]
  rfl

/-- No stretch writes `main_arg0`: it is entered as launched. -/
theorem V3_arg0 (c : Dev nD) : Gen.V3 m c main_arg0 = m ((c : Thread nD τ).loc main_arg0) :=
  (Gen.V3_of m c main_arg0 (by decide)).trans <| (Gen.V2_of m c main_arg0 (by decide)).trans <| (Gen.V1_of m c main_arg0 (by decide)).trans rfl

/-- No stretch writes `main_arg2`: it is entered as launched. -/
theorem V3_arg2 (c : Dev nD) : Gen.V3 m c main_arg2 = m ((c : Thread nD τ).loc main_arg2) :=
  (Gen.V3_of m c main_arg2 (by decide)).trans <| (Gen.V2_of m c main_arg2 (by decide)).trans <| (Gen.V1_of m c main_arg2 (by decide)).trans rfl

/-- No stretch writes `main_arg4`: it is entered as launched. -/
theorem V3_arg4 (c : Dev nD) : Gen.V3 m c main_arg4 = m ((c : Thread nD τ).loc main_arg4) :=
  (Gen.V3_of m c main_arg4 (by decide)).trans <| (Gen.V2_of m c main_arg4 (by decide)).trans <| (Gen.V1_of m c main_arg4 (by decide)).trans rfl

/-! ## The gather of layer 1 and what region 1 is entered with -/

/-- What region 0 leaves in its output array is what the later stretches read there. -/
theorem V4_v17 (c : Dev nD) : Gen.V4 m outs c main_v17 = outs 4 main_v17 c :=
  Function.update_self (β := fun b : DevRef τ sig => Buf (Elt F) ((c : Thread nD τ).1, b)) (Proc.devRef .tc main_v17) (outs 4 main_v17 c) (Gen.V3 m c)

set_option maxHeartbeats 1000000 in
/-- The rows of region 0's result gathered at the edges' sources: depends on row 0 of the edge list and on region 0's result. -/
theorem V5_v18 (c : Dev nD) :
    Gen.V5 m outs c main_v18 = takeK (F := F) (eiOf m c) (outs 4 main_v17 c) := by
  have h1 : Gen.V4 m outs c main_v1 = srcK (eiOf m c) := (Gen.V4_of m outs c main_v1 (by decide)).trans <| (Gen.V3_of m c main_v1 (by decide)).trans <| (Gen.V2_of m c main_v1 (by decide)).trans (V1_v1 m c)
  have h0 : Gen.V4 m outs c main_v17 = outs 4 main_v17 c := V4_v17 m outs c
  show StableHlo.after hostOps1 (Gen.V4 m outs c) (Proc.devRef .tc main_v18) = _
  generalize Gen.V4 m outs c = W at h1 h0 ⊢
  after_results_simp
  simp only [ofBuf_toBuf]
  rw [h1, h0]
  have e1 : ∀ v : IVec S1000000 32,
      ((StableHlo.TRef.of main_v1 : StableHlo.TRef sig ⟨S1000000, .i32⟩).ofBuf (Val := Elt F) v) = v := fun _ => rfl
  have e0 : ∀ v : FVec F S100000x64 .f32,
      ((StableHlo.TRef.of main_v17 : StableHlo.TRef sig ⟨S100000x64, .f32⟩).ofBuf (Val := Elt F) v) = v := fun _ => rfl
  have eo : ∀ v : FVec F S1000000x64 .f32,
      ((StableHlo.TRef.of main_v18 : StableHlo.TRef sig ⟨S1000000x64, .f32⟩).toBuf (Val := Elt F) v) = v := fun _ => rfl
  rw [e1, e0]
  refine (eo _).trans ?_
  rfl

/-- Window 0 of region 1: the gathered rows of region 0's result summed into their edges' destination nodes. -/
theorem V6_v21 (c : Dev nD) :
    Gen.V6 m outs c main_v21 = saK (F := F) (eiOf m c) (takeK (eiOf m c) (outs 4 main_v17 c)) := by
  have h3 : Gen.V5 m outs c main_v3 = dstK (eiOf m c) := (Gen.V5_of m outs c main_v3 (by decide)).trans <| (Gen.V4_of m outs c main_v3 (by decide)).trans <| (Gen.V3_of m c main_v3 (by decide)).trans <| (Gen.V2_of m c main_v3 (by decide)).trans (V1_v3 m c)
  have hu := V5_v18 m outs c
  show StableHlo.after hostOps1_1 (Gen.V5 m outs c) (Proc.devRef .tc main_v21) = _
  generalize Gen.V5 m outs c = W at h3 hu ⊢
  after_results
  rw [h3, hu]
  rfl

/-- Window 1 of region 1: the clamped in-degree column, untouched since the first stretch. -/
theorem V6_v11 (c : Dev nD) : Gen.V6 m outs c main_v11 = degcK (F := F) (eiOf m c) :=
  (Gen.V6_of m outs c main_v11 (by decide)).trans <| (Gen.V5_of m outs c main_v11 (by decide)).trans <|
    (Gen.V4_of m outs c main_v11 (by decide)).trans (V3_v11 m c)

/-- Window 2 of region 1: region 0's result, which no later stretch writes. -/
theorem V6_v17 (c : Dev nD) : Gen.V6 m outs c main_v17 = outs 4 main_v17 c :=
  (Gen.V6_of m outs c main_v17 (by decide)).trans <| (Gen.V5_of m outs c main_v17 (by decide)).trans (V4_v17 m outs c)

/-- Window 4 of region 1: the bias of layer 1 as a one-by-one array. -/
theorem V6_v22 (c : Dev nD) :
    Gen.V6 m outs c main_v22 = shapeCast _ (m ((c : Thread nD τ).loc main_arg6)) shapeCasts_S1_S1x1 := by
  have ha : Gen.V5 m outs c main_arg6 = m ((c : Thread nD τ).loc main_arg6) := (Gen.V5_of m outs c main_arg6 (by decide)).trans <| (Gen.V4_of m outs c main_arg6 (by decide)).trans <| (Gen.V3_of m c main_arg6 (by decide)).trans <| (Gen.V2_of m c main_arg6 (by decide)).trans <| (Gen.V1_of m c main_arg6 (by decide)).trans rfl
  show StableHlo.after hostOps1_1 (Gen.V5 m outs c) (Proc.devRef .tc main_v22) = _
  generalize Gen.V5 m outs c = W at ha ⊢
  after_results
  rw [ha]
  rfl

/-- No stretch writes `main_arg5`: it is entered as launched. -/
theorem V6_arg5 (c : Dev nD) : Gen.V6 m outs c main_arg5 = m ((c : Thread nD τ).loc main_arg5) :=
  (Gen.V6_of m outs c main_arg5 (by decide)).trans <| (Gen.V5_of m outs c main_arg5 (by decide)).trans <| (Gen.V4_of m outs c main_arg5 (by decide)).trans <| (Gen.V3_of m c main_arg5 (by decide)).trans <| (Gen.V2_of m c main_arg5 (by decide)).trans <| (Gen.V1_of m c main_arg5 (by decide)).trans rfl

/-- No stretch writes `main_arg7`: it is entered as launched. -/
theorem V6_arg7 (c : Dev nD) : Gen.V6 m outs c main_arg7 = m ((c : Thread nD τ).loc main_arg7) :=
  (Gen.V6_of m outs c main_arg7 (by decide)).trans <| (Gen.V5_of m outs c main_arg7 (by decide)).trans <| (Gen.V4_of m outs c main_arg7 (by decide)).trans <| (Gen.V3_of m c main_arg7 (by decide)).trans <| (Gen.V2_of m c main_arg7 (by decide)).trans <| (Gen.V1_of m c main_arg7 (by decide)).trans rfl

/-! ## The small arrays read at an index (ideal family: the narrowing to bf16 is the identity) -/

/-- The in-degree column at row `r` is the clamped in-degree of node `r`: the cast keeps the row-major position. -/
theorem degcK_apply (ei : IVec S2x1000000 32) (r : Fin 100000) :
    degcK (F := Ideal) ei (ix2 r (0 : Fin 1)) = degK (F := Ideal) ei (ix1 r) := by
  unfold degcK
  rw [truncf_apply]
  refine shapeCast_apply _ _ _ _ ?_
  rw [Shape.rowMajor_val_two, Shape.rowMajor_val_one]
  show r.val = r.val * 1 + 0
  omega

/-- The bias row of layer 0 at column `j` is entry `j` of the bias vector. -/
theorem bias0_apply (b : FVec Ideal S64 .f32) (j : Fin 64) :
    (shapeCast S1x64 b shapeCasts_S64_S1x64 : FVec Ideal S1x64 .f32) (ix2 (0 : Fin 1) j) = b (ix1 j) :=
  shapeCast_a_1a_apply b shapeCasts_S64_S1x64 0 j

/-- The one-by-one bias array of layer 1 holds the one entry of the bias vector. -/
theorem bias1_apply (b : FVec Ideal S1 .f32) :
    (shapeCast S1x1 b shapeCasts_S1_S1x1 : FVec Ideal S1x1 .f32) (ix2 (0 : Fin 1) (0 : Fin 1)) = b (ix1 (0 : Fin 1)) :=
  shapeCast_a_1a_apply b shapeCasts_S1_S1x1 0 0

end Cert.KernelIdeal.Sage

end
-- ==== Proof.PreDecode.lean ====
import proofs.«414274_j35485019799946_3_alg».proof.Defs
import proofs.«414274_j35485019799946_3_alg».proof.Proof.Gen.Pre_finite_inputs
import proofs.«414274_j35485019799946_3_alg».proof.Proof.EdgeOps
import Idealize.ShloMosaic.Lib.ReduceAll
import Idealize.ShloMosaic.Lib.ValueIdx
import Idealize.ShloMosaic.PureOps.Reduce

/-!
The precondition's last conjunct says every source node id of the edge list lies in `0 … 99999` (signed 32-bit
compares). Under it the shift of negative source ids is the identity, the range mask of the take is one at every edge,
and the take (a gather whose out-of-range rows are replaced by the not-a-number word) is the plain gather.
-/

noncomputable section

namespace Cert.KernelIdeal.Sage

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

/-- every source node id lies in 0 … 99999 (as signed 32-bit words) -/
def SrcOk (ei : IVec S2x1000000 32) : Prop :=
  ∀ e : S1000000.Idx, (0#32).sle (srcK ei e) = true ∧ (srcK ei e).sle 99999#32 = true

/-- The same bounds on the signed value of each source id. -/
theorem SrcOk.toInt {ei : IVec S2x1000000 32} (h : SrcOk ei) (e : S1000000.Idx) :
    0 ≤ (srcK ei e).toInt ∧ (srcK ei e).toInt ≤ 99999 := by
  obtain ⟨h0, h1⟩ := h e
  rw [BitVec.sle_iff_toInt_le] at h0 h1
  exact ⟨by simpa using h0, by
    have e9 : (99999#32 : BitVec 32).toInt = 99999 := by decide
    rw [e9] at h1; exact h1⟩

/-- A one-bit comparison word is one exactly when the comparison holds. -/
theorem ofBool_one_iff (b : Bool) : BitVec.ofBool b = 1#1 ↔ b = true := by cases b <;> decide

/-- The rank-0 shape has one index. -/
instance : Subsingleton S_.Idx := ⟨fun a b => funext fun d => d.elim0⟩
instance : Subsingleton Cert.Pre_finite_inputs.S_.Idx := ⟨fun a b => funext fun d => d.elim0⟩

/-- THE PRECONDITION DECODED: its last conjunct, read at each edge, bounds the edge's source id. -/
theorem srcOk_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev nD) :
    SrcOk (m ((c : Thread nD τ).loc main_arg1)) := by
  intro e
  have h0 := congrFun (hpre c) ValueIdx.ix0
  dsimp only [Cert.Pre_finite_inputs.fn, Cert.Pre_finite_inputs.fn_part1, Cert.Pre_finite_inputs.fn_part2] at h0
  -- the outermost conjunction: its right side is the all-reduction of the per-edge range test
  have h1 := (IntOp.andi_eq_one.1 h0).2
  have h2 := Host.reduce_andi_all _ _ _ _ _ h1 e
  obtain ⟨ha, hb⟩ := IntOp.andi_eq_one.1 h2
  exact ⟨(ofBool_one_iff _).1 ha, (ofBool_one_iff _).1 hb⟩

/-- A left fold by `and` from one over one-bit words that are all one is one. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- At a source id `s` in `0 … 99999`: `s` is not negative, so the shifted id is `s`, and its range test is one. -/
theorem ok_word (s : BitVec 32) (h0 : (0#32).sle s = true) (h1 : s.sle 99999#32 = true) :
    IntOp.andi (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have hlt : s.slt 0#32 = false := by
    have := (BitVec.sle_iff_toInt_le).1 h0
    simp only [BitVec.slt, decide_eq_false_iff_not, Int.not_lt]
    exact this
  have hsel : Scalar.select (IntOp.cmpi .slt s 0#32) (IntOp.addi s 100000#32) s = s := by
    show (if BitVec.ofBool (s.slt 0#32) = 1 then _ else _) = _
    rw [hlt]; rfl
  rw [hsel]
  show IntOp.andi (BitVec.ofBool ((0#32).sle s)) (BitVec.ofBool (s.sle 99999#32)) = 1#1
  rw [h0, h1]; rfl

/-- Under the bounds the shifted source id of every edge passes the range test. -/
theorem normK_ok (ei : IVec S2x1000000 32) (h : SrcOk ei) (e : S1000000.Idx) :
    IntOp.andi (IntOp.cmpi .sge (normK ei e) 0#32) (IntOp.cmpi .sle (normK ei e) 99999#32) = 1#1 := by
  obtain ⟨h0, h1⟩ := h e
  exact ok_word _ h0 h1

/-- Under the bounds the range test of the take is one at every edge: the test of an edge is the `and` over the one
    column of the edge's row, whose entry is the test of the edge's shifted source id. -/
theorem okK_one (ei : IVec S2x1000000 32) (h : SrcOk ei) (e : S1000000.Idx) : okK ei e = 1#1 := by
  unfold okK
  show Host.reduce IntOp.andi _ _ reducesTo_S1000000x1_S1000000_d1 h_S_ e = 1#1
  rw [Host.reduce_eq_foldl]
  refine foldl_andi_one _ _ (fun n _ => ?_)
  exact normK_ok ei h _

/-- THE TAKE IS THE GATHER: with every source id in range no row is replaced. -/
theorem take_eq_gather {F : FTy → Type} [FloatOps F] (ei : IVec S2x1000000 32) (h : SrcOk ei) (x : FVec F S100000x64 .f32) :
    takeK ei x = gthK ei x := by
  funext i
  unfold takeK
  rw [ValueIdx.select_apply]
  have hm : maskK ei i = 1#1 := by
    unfold maskK
    simp only [broadcastInDim]
    exact okK_one ei h _
  rw [hm]
  exact ValueIdx.select_one _ _

end Cert.KernelIdeal.Sage

end
-- ==== Proof.RefValue.lean ====
import proofs.«414274_j35485019799946_3_alg».proof.Proof.Gen.ReferenceIdeal.Read
import proofs.«414274_j35485019799946_3_alg».proof.Proof.Spec
import Idealize.ShloMosaic.PureOps.Ideal
import Idealize.ShloMosaic.PureOps.Ideal.Laws
import Idealize.ShloMosaic.Lib.ValueIdx

/-!
The reference program's two results are the specification's two functions, at the ideal instance.

The reference computes, layer by layer, the same formula as `Cert.SageSpec`: the gather along the edges, the sum into
the end nodes and the clamped in-degree are functions of the edge list alone and are kept closed (`gthR`, `saR`,
`degR`); every other operation is read index by index. The only algebraic difference is the order of the two
additions: the reference adds the bias before the root term, the specification after it.
-/

noncomputable section

open scoped BigOperators

namespace Cert.ReferenceIdeal.RefValue

open Cert.ReferenceIdeal Cert.ReferenceIdeal.Gen Cert.ReferenceIdeal.Read Cert.SageSpec Idealize.ShloMosaic
  Idealize.ShloMosaic.ValueIdx

/-- the reference's gather along the edges: a function of the edge list `x1` -/
def gthR (x1 : (⟨S2x1000000, .i32⟩ : BufTy).Contents (Elt Ideal)) (h : FVec Ideal S100000x64 .f32) :
    FVec Ideal S1000000x64 .f32 :=
  Host.gather gather_S100000x64_S1000000x1_S1000000x64_1_0_n_n_0_1_164 h (val_main_v9 (F := Ideal) x1)

/-- the reference's sum into the edges' end nodes: a function of the edge list `x1` -/
def saR (x1 : (⟨S2x1000000, .i32⟩ : BufTy).Contents (Elt Ideal)) (u : FVec Ideal S1000000x64 .f32) :
    FVec Ideal S100000x64 .f32 :=
  Host.scatterAdd scatter_S100000x64_S1000000x1_S1000000x64_1_0_0_1 (val_main_v11 (F := Ideal))
    (val_main_v12 (F := Ideal) x1) u

/-- the reference's in-degree clamped at one: a function of the edge list `x1` -/
def degR (x1 : (⟨S2x1000000, .i32⟩ : BufTy).Contents (Elt Ideal)) : FVec Ideal S100000 .f32 :=
  val_main_v19 (F := Ideal) x1

/-- The word `0x3F800000` is the number one. -/
theorem ofBits_one_f32 : Ideal.ofBits .f32 0x3F800000#32 = 1 := by
  simp [Ideal.ofBits, Ideal.ieee, -EReal.coe_mul]; norm_num

/-! ## Index equations: the composed index functions of the reference's layout operations, at coordinates -/

section Indices

variable (r : Fin 100000) (j k : Fin 64) (z : Fin 1)

theorem lidx24 : lidx_main_v24 (ix2 r j) k = ix2 r k :=
  funext fun a => Fin.ext (by match a with | ⟨0, _⟩ => rfl | ⟨1, _⟩ => rfl)
theorem ridx24 : idx_main_v23 (ridx_main_v24 (ix2 r j) k) = ix2 j k :=
  funext fun a => Fin.ext (by match a with | ⟨0, _⟩ => rfl | ⟨1, _⟩ => rfl)
theorem didx21 : idx_main_v20 (idx_main_v21 (ix2 r k)) = ix1 r :=
  funext fun a => Fin.ext (by match a with | ⟨0, _⟩ => rfl)
theorem bidx26 : idx_main_v25 (idx_main_v26 (ix2 r j)) = ix1 j :=
  funext fun a => Fin.ext (by match a with | ⟨0, _⟩ => rfl)
theorem lidx29 : lidx_main_v29 (ix2 r j) k = ix2 r k :=
  funext fun a => Fin.ext (by match a with | ⟨0, _⟩ => rfl | ⟨1, _⟩ => rfl)
theorem ridx29 : idx_main_v28 (ridx_main_v29 (ix2 r j) k) = ix2 j k :=
  funext fun a => Fin.ext (by match a with | ⟨0, _⟩ => rfl | ⟨1, _⟩ => rfl)

theorem lidx52 : lidx_main_v52 (ix2 r z) k = ix2 r k :=
  funext fun a => Fin.ext (by match a with | ⟨0, _⟩ => rfl | ⟨1, _⟩ => rfl)
theorem ridx52 : idx_main_v51 (ridx_main_v52 (ix2 r z) k) = ix2 z k :=
  funext fun a => Fin.ext (by match a with | ⟨0, _⟩ => rfl | ⟨1, _⟩ => rfl)
theorem didx49 : idx_main_v48 (idx_main_v49 (ix2 r k)) = ix1 r :=
  funext fun a => Fin.ext (by match a with | ⟨0, _⟩ => rfl)
theorem bidx54 : idx_main_v53 (idx_main_v54 (ix2 r z)) = ix1 (0 : Fin 1) :=
  funext fun a => Fin.ext (by match a with | ⟨0, _⟩ => rfl)
theorem lidx57 : lidx_main_v57 (ix2 r z) k = ix2 r k :=
  funext fun a => Fin.ext (by match a with | ⟨0, _⟩ => rfl | ⟨1, _⟩ => rfl)
theorem ridx57 : idx_main_v56 (ridx_main_v57 (ix2 r z) k) = ix2 z k :=
  funext fun a => Fin.ext (by match a with | ⟨0, _⟩ => rfl | ⟨1, _⟩ => rfl)

end Indices

/-! ## Layer 0 -/

section Layer0

variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal))

/-- The first sum into the end nodes is `saR` of `gthR` of the features. -/
theorem v13_eq : val_main_v13 (F := Ideal) x0 x1 = saR x1 (gthR x1 x0) := rfl

/-- The neighbours' mean at node `r`, feature `k`. -/
theorem v22_at (r : Fin 100000) (k : Fin 64) :
    val_main_v22 (F := Ideal) x0 x1 (ix2 r k) = Ideal.div (saR x1 (gthR x1 x0) (ix2 r k)) (degR x1 (ix1 r)) := by
  rw [val_main_v22_apply, val_main_v21_apply, val_main_v20_apply, didx21, v13_eq, Ideal.hostDivf_def]
  rfl

/-- The reference's first layer is the specification's. -/
theorem v31_eq :
    val_main_v31 (F := Ideal) x0 x1 x2 x3 x4 = layer0 (degR x1) (saR x1 (gthR x1 x0)) x0 x2 x4 x3 := by
  funext i
  obtain ⟨r, j, rfl⟩ : ∃ (r : Fin 100000) (j : Fin 64), i = ix2 r j := ⟨i 0, i 1, eq_ix2 i⟩
  rw [layer0_apply, val_main_v31_apply, val_main_v30_apply, val_main_v27_apply, val_main_v24_apply,
    val_main_v29_apply, val_main_v26_apply, val_main_v25_apply, val_main_call0_v0_apply, val_main_call0_cst_apply,
    bidx26]
  have hA : (∑ k : Fin 64, val_main_v22 (F := Ideal) x0 x1 (lidx_main_v24 (ix2 r j) k)
        * val_main_v23 (F := Ideal) x2 (ridx_main_v24 (ix2 r j) k))
      = ∑ k : Fin 64, Ideal.div (saR x1 (gthR x1 x0) (ix2 r k)) (degR x1 (ix1 r)) * x2 (ix2 j k) :=
    Finset.sum_congr rfl fun k _ => by rw [lidx24, v22_at, val_main_v23_apply, ridx24]
  have hB : (∑ k : Fin 64, x0 (lidx_main_v29 (ix2 r j) k) * val_main_v28 (F := Ideal) x4 (ridx_main_v29 (ix2 r j) k))
      = ∑ k : Fin 64, x0 (ix2 r k) * x4 (ix2 j k) :=
    Finset.sum_congr rfl fun k _ => by rw [lidx29, val_main_v28_apply, ridx29]
  rw [hA, hB]
  simp only [Ideal.addf_def, Ideal.maximumf_def, Ideal.ofBits_def, Ideal.ofBits_zero_f32]
  unfold conv0At
  rw [add_right_comm]

end Layer0

/-! ## Layer 1 -/

section Layer1

variable (x0 : (⟨S100000x64, .f32⟩ : BufTy).Contents (Elt Ideal)) (x1 : (⟨S2x1000000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S1x64, .f32⟩ : BufTy).Contents (Elt Ideal))
  (x6 : (⟨S1, .f32⟩ : BufTy).Contents (Elt Ideal)) (x7 : (⟨S1x64, .f32⟩ : BufTy).Contents (Elt Ideal))

/-- The second layer's index column is the first layer's: the same operations on the edge list's first row. -/
theorem v37_eq : val_main_v37 (F := Ideal) x1 = val_main_v9 (F := Ideal) x1 := rfl

/-- The second layer's destination column is the first layer's: the edge list's second row. -/
theorem v40_eq : val_main_v40 (F := Ideal) x1 = val_main_v12 (F := Ideal) x1 := rfl

/-- The second layer's zero array is the first layer's. -/
theorem v39_eq : val_main_v39 (F := Ideal) = val_main_v11 (F := Ideal) := rfl

/-- The second layer's clamped in-degree is the first layer's. -/
theorem v47_eq : val_main_v47 (F := Ideal) x1 = degR x1 := rfl

/-- The second sum into the end nodes is `saR` of `gthR` of the first layer's result. -/
theorem v41_eq :
    val_main_v41 (F := Ideal) x0 x1 x2 x3 x4 = saR x1 (gthR x1 (val_main_v31 (F := Ideal) x0 x1 x2 x3 x4)) := rfl

/-- The neighbours' mean of the first layer's result at node `r`, feature `k`. -/
theorem v50_at (r : Fin 100000) (k : Fin 64) :
    val_main_v50 (F := Ideal) x0 x1 x2 x3 x4 (ix2 r k)
      = Ideal.div (saR x1 (gthR x1 (val_main_v31 (F := Ideal) x0 x1 x2 x3 x4)) (ix2 r k)) (degR x1 (ix1 r)) := by
  rw [val_main_v50_apply, val_main_v49_apply, val_main_v48_apply, didx49, v41_eq, v47_eq, Ideal.hostDivf_def]

/-- The reference's second layer is the specification's, over the reference's first layer. -/
theorem v58_eq_layer1 :
    val_main_v58 (F := Ideal) x0 x1 x2 x3 x4 x5 x6 x7
      = layer1 (degR x1) (saR x1 (gthR x1 (val_main_v31 (F := Ideal) x0 x1 x2 x3 x4)))
          (val_main_v31 (F := Ideal) x0 x1 x2 x3 x4) x5 x7 x6 := by
  funext i
  obtain ⟨r, z, rfl⟩ : ∃ (r : Fin 100000) (z : Fin 1), i = ix2 r z := ⟨i 0, i 1, eq_ix2 i⟩
  obtain rfl : z = 0 := Subsingleton.elim _ _
  rw [layer1_apply, val_main_v58_apply, val_main_v55_apply, val_main_v52_apply, val_main_v57_apply,
    val_main_v54_apply, val_main_v53_apply, bidx54]
  have hA : (∑ k : Fin 64, val_main_v50 (F := Ideal) x0 x1 x2 x3 x4 (lidx_main_v52 (ix2 r (0 : Fin 1)) k)
        * val_main_v51 (F := Ideal) x5 (ridx_main_v52 (ix2 r (0 : Fin 1)) k))
      = ∑ k : Fin 64, Ideal.div (saR x1 (gthR x1 (val_main_v31 (F := Ideal) x0 x1 x2 x3 x4)) (ix2 r k)) (degR x1 (ix1 r))
          * x5 (ix2 (0 : Fin 1) k) :=
    Finset.sum_congr rfl fun k _ => by rw [lidx52, v50_at, val_main_v51_apply, ridx52]
  have hB : (∑ k : Fin 64, val_main_v31 (F := Ideal) x0 x1 x2 x3 x4 (lidx_main_v57 (ix2 r (0 : Fin 1)) k)
        * val_main_v56 (F := Ideal) x7 (ridx_main_v57 (ix2 r (0 : Fin 1)) k))
      = ∑ k : Fin 64, val_main_v31 (F := Ideal) x0 x1 x2 x3 x4 (ix2 r k) * x7 (ix2 (0 : Fin 1) k) :=
    Finset.sum_congr rfl fun k _ => by rw [lidx57, val_main_v56_apply, ridx57]
  rw [hA, hB]
  simp only [Ideal.addf_def]
  unfold conv1At
  rw [add_right_comm]

/-- The reference's first result is the specification's model. -/
theorem ref_v58 :
    val_main_v58 (F := Ideal) x0 x1 x2 x3 x4 x5 x6 x7 = model (gthR x1) (saR x1) (degR x1) x0 x2 x4 x3 x5 x7 x6 := by
  rw [v58_eq_layer1, v31_eq]
  rfl

/-- The reference's second result is the logistic function of its first, element by element:
    it spells `1 / (1 + exp (-y))`, which is the logistic function's definition. -/
theorem ref_v64 :
    val_main_v64 (F := Ideal) x0 x1 x2 x3 x4 x5 x6 x7
      = sigm (model (gthR x1) (saR x1) (degR x1) x0 x2 x4 x3 x5 x7 x6) := by
  rw [← ref_v58 x0 x1 x2 x3 x4 x5 x6 x7]
  funext i
  rw [val_main_v64_apply, val_main_v63_apply, val_main_cst_11_apply, val_main_v62_apply, val_main_v61_apply,
    val_main_cst_10_apply, val_main_v60_apply, val_main_v59_apply]
  simp only [Ideal.hostDivf_def, Ideal.addf_def, Ideal.hostUnary_exp_def, Ideal.hostNegf_def, Ideal.negf_def,
    Ideal.ofBits_def, ofBits_one_f32]
  rfl

end Layer1

end Cert.ReferenceIdeal.RefValue

end
-- ==== Proof.Assemble.lean ====
import proofs.«414274_j35485019799946_3_alg».proof.Proof.Body0
import proofs.«414274_j35485019799946_3_alg».proof.Proof.Body1
import proofs.«414274_j35485019799946_3_alg».proof.Proof.RunAll
import proofs.«414274_j35485019799946_3_alg».proof.Proof.KernelValue
import proofs.«414274_j35485019799946_3_alg».proof.Proof.HostValue
import proofs.«414274_j35485019799946_3_alg».proof.Proof.PreDecode
import proofs.«414274_j35485019799946_3_alg».proof.Proof.RefValue

/-!
The idealized kernel's two results are the specification's two functions of the arguments, and so are the
reference's.

Kernel side: pipeline 1's two result arrays are `layer1` (and its logistic) of what pipeline 1 is entered with; that
is the host operations of what pipeline 0 leaves, which is `layer0` of what pipeline 0 is entered with; that is the
host operations of the arguments. Under the precondition every source node id is in range, so the take of the
feature rows along the edges is the plain gather. The clamped degree column read back as a vector, the bias row
and the bias cell read back as vectors are the vectors they were made from. Reference side: the generated run and
the stage-by-stage reading of it. The two programs' edge operations are the same operations.
-/

set_option maxRecDepth 16384

noncomputable section

namespace Cert.KernelIdeal.Sage

open Cert.KernelIdeal Cert.KernelIdeal.Gen Cert.SageSpec
open Idealize.ShloMosaic Idealize.ShloMosaic.TcCoe Idealize.ShloMosaic.ValueIdx
open Idealize.SL.Sem
open Idealize.ShloMosaic.Pipeline (Dat RDat BodyObligation BodyObligationLoose)

variable (m : (ℓ : Loc nD τ sig) → Buf (Elt Ideal) ℓ) (ρ : Dev nD → PrngReg)

/-- The clamped degree column read back as a vector is the clamped degree. -/
theorem degOf_degcK (ei : IVec S2x1000000 32) : degOf (degcK (F := Ideal) ei) = degK (F := Ideal) ei := by
  funext i
  obtain ⟨r, rfl⟩ : ∃ r : Fin 100000, i = ix1 r := ⟨i 0, eq_ix1 i⟩
  exact degcK_apply ei r

/-- The bias row read back as a vector is the bias. -/
theorem rowOf_bias (b : FVec Ideal S64 .f32) : rowOf (shapeCast S1x64 b shapeCasts_S64_S1x64) = b := by
  funext i
  obtain ⟨j, rfl⟩ : ∃ j : Fin 64, i = ix1 j := ⟨i 0, eq_ix1 i⟩
  exact bias0_apply b j

/-- The bias cell read back as a vector is the bias. -/
theorem cellOf1_bias (b : FVec Ideal S1 .f32) : cellOf1 (shapeCast S1x1 b shapeCasts_S1_S1x1) = b := by
  funext i
  obtain ⟨j, rfl⟩ : ∃ j : Fin 1, i = ix1 j := ⟨i 0, eq_ix1 i⟩
  obtain rfl : j = 0 := Subsingleton.elim _ _
  exact bias1_apply b

variable (hpre : Cert.Pre_KernelIdeal (hPre_finite_inputs := Cert.Pre_finite_inputs.Gen.facts) m)

include hpre in
/-- What pipeline 0 leaves in its result array: layer 0 of the arguments. -/
theorem kernel_h0 (c : Dev nD) : (dat0 (F := Ideal) (Vin0 m) c).arrAt 6 cfg0.N
    = layer0 (degK (F := Ideal) (eiOf m c)) (saK (F := Ideal) (eiOf m c) (gthK (F := Ideal) (eiOf m c) (m ((c : Thread nD τ).loc main_arg0))))
        (m ((c : Thread nD τ).loc main_arg0)) (m ((c : Thread nD τ).loc main_arg2)) (m ((c : Thread nD τ).loc main_arg4))
        (m ((c : Thread nD τ).loc main_arg3)) := by
  rw [final0 (Vin0 m) c]
  show layer0 (degOf (Gen.V3 m c main_v11)) (Gen.V3 m c main_v15) (Gen.V3 m c main_arg0) (Gen.V3 m c main_arg2) (Gen.V3 m c main_arg4)
    (rowOf (Gen.V3 m c main_v16)) = _
  rw [V3_v11, V3_v15, V3_v16, V3_arg0, V3_arg2, V3_arg4, degOf_degcK, rowOf_bias,
    take_eq_gather _ (srcOk_of_pre m hpre c)]

include hpre in
/-- Pipeline 1's first result array: the model of the arguments. -/
theorem kernel_h1 (c : Dev nD) : (dat1 (F := Ideal) (Vin1 m) c).arrAt 6 cfg1.N
    = model (gthK (F := Ideal) (eiOf m c)) (saK (F := Ideal) (eiOf m c)) (degK (F := Ideal) (eiOf m c))
        (m ((c : Thread nD τ).loc main_arg0)) (m ((c : Thread nD τ).loc main_arg2)) (m ((c : Thread nD τ).loc main_arg4))
        (m ((c : Thread nD τ).loc main_arg3)) (m ((c : Thread nD τ).loc main_arg5)) (m ((c : Thread nD τ).loc main_arg7))
        (m ((c : Thread nD τ).loc main_arg6)) := by
  rw [final1_6 (Vin1 m) c]
  show layer1 (degOf (Gen.V6 m (outsK m) c main_v11)) (Gen.V6 m (outsK m) c main_v21) (Gen.V6 m (outsK m) c main_v17)
    (Gen.V6 m (outsK m) c main_arg5) (Gen.V6 m (outsK m) c main_arg7) (cellOf1 (Gen.V6 m (outsK m) c main_v22)) = _
  rw [V6_v11, V6_v21, V6_v17, V6_v22, V6_arg5, V6_arg7, degOf_degcK, cellOf1_bias, outsK_v17, kernel_h0 m hpre c,
    take_eq_gather _ (srcOk_of_pre m hpre c)]
  rfl

include hpre in
/-- Pipeline 1's second result array: the logistic function of the first. -/
theorem kernel_sig1 (c : Dev nD) : (dat1 (F := Ideal) (Vin1 m) c).arrAt 7 cfg1.N
    = sigm (model (gthK (F := Ideal) (eiOf m c)) (saK (F := Ideal) (eiOf m c)) (degK (F := Ideal) (eiOf m c))
        (m ((c : Thread nD τ).loc main_arg0)) (m ((c : Thread nD τ).loc main_arg2)) (m ((c : Thread nD τ).loc main_arg4))
        (m ((c : Thread nD τ).loc main_arg3)) (m ((c : Thread nD τ).loc main_arg5)) (m ((c : Thread nD τ).loc main_arg7))
        (m ((c : Thread nD τ).loc main_arg6))) := by
  rw [← kernel_h1 m hpre c, final1_7 (Vin1 m) c, final1_6 (Vin1 m) c]

end Cert.KernelIdeal.Sage

end
-- ==== Proof.lean ====
/- The proof of `Cert.Claim`: the three frames, the (empty) idealization ledger, and the equality of the idealized
   kernel's and the idealized reference's results over the extended reals.

   Both programs compute two stacked graph-convolution layers on 100000 nodes and 1000000 edges: per layer, the mean
   of the feature rows gathered along the edges into each node, times `Wlᵀ`, plus the node's own row times `Wrᵀ`, plus
   the bias; a clamp at zero after layer 0; the second result the logistic function of the first. The kernel computes
   each layer's dense part in a pipelined region over row blocks and adds the bias last; the reference adds it before
   the root term: the extended reals' addition is commutative and associative, so the two agree without any
   finiteness. The kernel's gather fills a row whose source index is out of range with a not-a-number word, the
   reference's clamps the index: under the precondition (every source node id within 0 … 99999) both are the plain
   gather. The word-level kernel's frame forgets the second region's staging contents, whose rows past the arrays'
   end nothing names; the idealized kernel's run names both result arrays. -/
import proofs.«414274_j35485019799946_3_alg».proof.Defs
import proofs.«414274_j35485019799946_3_alg».proof.Proof.Gen.Kernel
import proofs.«414274_j35485019799946_3_alg».proof.Proof.Gen.KernelIdeal
import proofs.«414274_j35485019799946_3_alg».proof.Proof.Gen.ReferenceIdeal
import proofs.«414274_j35485019799946_3_alg».proof.Proof.Gen.Pre_finite_inputs
import proofs.«414274_j35485019799946_3_alg».proof.Proof.Gen.ReferenceIdeal.Run
import proofs.«414274_j35485019799946_3_alg».proof.Proof.Gen.ReferenceIdeal.Read
import proofs.«414274_j35485019799946_3_alg».proof.Proof.Body0B
import proofs.«414274_j35485019799946_3_alg».proof.Proof.Body1FB
import proofs.«414274_j35485019799946_3_alg».proof.Proof.RunAllB
import proofs.«414274_j35485019799946_3_alg».proof.Proof.Assemble
import Idealize.ShloMosaic.Adequacy
import Idealize.ShloMosaic.Init

set_option maxRecDepth 16384

noncomputable section

namespace Cert.Proof

open Idealize.ShloMosaic Idealize.SL.Sem

/-! ## The two programs' edge operations are the same operations -/

open Cert.ReferenceIdeal.RefValue Cert.KernelIdeal.Sage in
theorem gth_eq (ei : IVec Cert.KernelIdeal.S2x1000000 32) : gthR ei = gthK (F := Ideal) ei := rfl
open Cert.ReferenceIdeal.RefValue Cert.KernelIdeal.Sage in
theorem sa_eq (ei : IVec Cert.KernelIdeal.S2x1000000 32) : saR ei = saK (F := Ideal) ei := rfl
open Cert.ReferenceIdeal.RefValue Cert.KernelIdeal.Sage in
theorem deg_eq (ei : IVec Cert.KernelIdeal.S2x1000000 32) : degR ei = degK (F := Ideal) ei := rfl

/-! ## The claims -/

theorem frame_k : Cert.frame_Kernel (hKernel := Cert.Kernel.Gen.facts) (hPre_finite_inputs := Cert.Pre_finite_inputs.Gen.facts) :=
  fun m ρ _ => Cert.Kernel.Sage.frame_gen (F := Bits) m ρ (fun _ => true)
    (fun c => Cert.Kernel.Sage.body_obligation0 _ c) (fun c => (Cert.Kernel.Sage.body_obligation1_forget _ c).loose)

theorem frame_ki : Cert.frame_KernelIdeal (hKernelIdeal := Cert.KernelIdeal.Gen.facts) (hPre_finite_inputs := Cert.Pre_finite_inputs.Gen.facts) :=
  fun m ρ _ => Cert.KernelIdeal.Sage.frame_gen (F := Ideal) m ρ (fun _ => false)
    (fun c => Cert.KernelIdeal.Sage.body_obligation0 _ c) (fun c => Cert.KernelIdeal.Sage.body_obligation1 _ c)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

set_option maxHeartbeats 4000000 in
open Cert.KernelIdeal.Sage Cert.SageSpec in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (dat1 (F := Ideal) (Vin1 m) c).arrAt 6 Cert.KernelIdeal.cfg1.N,
    fun c => (dat1 (F := Ideal) (Vin1 m) c).arrAt 7 Cert.KernelIdeal.cfg1.N, ?_, ?_⟩
  · exact (θ_run Cert.KernelIdeal.defs _ _).mono
      (fun r h c => ⟨out_of_fin m _ r.2 c (h c) 6 rfl, out_of_fin m _ r.2 c (h c) 7 rfl, args_of_fin m _ r.2 c (h c)⟩)
      (run_all (F := Ideal) m ρ (fun _ => false) (fun c => body_obligation0 _ c) (fun c => body_obligation1 _ c))
  · refine (θ_run Cert.ReferenceIdeal.defs _ _).mono (fun r h c => ⟨(h c).1.trans ?_, (h c).2.1.trans ?_, (h c).2.2⟩)
      (Cert.ReferenceIdeal.Value.run (F := Ideal) m' ρ')
    · refine ((Cert.ReferenceIdeal.Read.val_main_v58_eq m' c).trans (Cert.ReferenceIdeal.RefValue.ref_v58 _ _ _ _ _ _ _ _)).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2, gth_eq, sa_eq, deg_eq]
      exact (kernel_h1 m hpre c).symm
    · refine ((Cert.ReferenceIdeal.Read.val_main_v64_eq m' c).trans (Cert.ReferenceIdeal.RefValue.ref_v64 _ _ _ _ _ _ _ _)).trans ?_
      rw [(hagree c).1, (hagree c).2.1, (hagree c).2.2.1, (hagree c).2.2.2.1, (hagree c).2.2.2.2.1, (hagree c).2.2.2.2.2.1,
        (hagree c).2.2.2.2.2.2.1, (hagree c).2.2.2.2.2.2.2, gth_eq, sa_eq, deg_eq]
      exact (kernel_sig1 m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
